-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S2048x1 : Shape := ⟨2, ![2048, 1]⟩
abbrev S2048x2048 : Shape := ⟨2, ![2048, 2048]⟩
abbrev S100000x2048 : Shape := ⟨2, ![100000, 2048]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S2048x1 : S_.BroadcastsInDim S2048x1 (![] : Fin 0 → Fin S2048x1.rank)
  reducesTo_S2048x1_S_d0_1 : S2048x1.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S100000x2048 : S_.BroadcastsInDim S100000x2048 (![] : Fin 0 → Fin S100000x2048.rank)
  reducesTo_S100000x2048_S_d0_1 : S100000x2048.ReducesTo [0, 1] S_

variable [Facts]

def fn_part3 {F : FTy → Type} [FloatOps F] (main_v48 : IVec S_ 1) (main_v49 : FVec F S100000x2048 .f32) (main_v50 : FVec F S100000x2048 .f32) : IVec S_ 1 :=
  let main_v51 : IVec S100000x2048 1 := cmpf .olt main_v49 main_v50
  let main_c_19 : IVec S_ 1 := constantI S_ 1 1#1
  let main_v52 : IVec S_ 1 := (fun x v => Host.reduce IntOp.andi x v reducesTo_S100000x2048_S_d0_1 h_S_) main_v51 main_c_19
  let main_v53 : IVec S_ 1 := andi main_v48 main_v52
  main_v53

def fn_part2 {F : FTy → Type} [FloatOps F] (main_arg7 : FVec F S2048x2048 .f32) (main_arg8 : FVec F S2048x2048 .f32) (main_arg9 : FVec F S2048x2048 .f32) (main_arg10 : FVec F S100000x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S100000x2048 .f32 := Host.absf main_arg10
  let main_cst_18 : FVec F S_ .f32 := constant S_ .f32 0x7F800000#32
  let main_v50 : FVec F S100000x2048 .f32 := broadcastInDim S100000x2048 ![] bcast_S_S100000x2048 main_cst_18
  fn_part3 (F := F) main_v48 main_v49 main_v50

def fn_part1 {F : FTy → Type} [FloatOps F] (main_arg4 : FVec F S2048x1 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S100000x2048 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S2048x1 .f32 := Host.absf main_arg4
  let main_cst_6 : FVec F S_ .f32 := constant S_ .f32 0x7F800000#32
  let main_v20 : FVec F S2048x1 .f32 := broadcastInDim S2048x1 ![] bcast_S_S2048x1 main_cst_6
  let main_v21 : IVec S2048x1 1 := cmpf .olt main_v19 main_v20
  let main_c_7 : IVec S_ 1 := constantI S_ 1 1#1
  let main_v22 : IVec S_ 1 := (fun x v => Host.reduce IntOp.andi x v reducesTo_S2048x1_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096 .f32) (main_arg1 : FVec F S4096 .f32) (main_arg2 : FVec F S4096 .f32) (main_arg3 : FVec F S4096 .f32) (main_arg4 : FVec F S2048x1 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S100000x2048 .f32) (main_arg11 : IVec S4096 32) : IVec S_ 1 :=
  let main_v0 : FVec F S4096 .f32 := Host.absf main_arg0
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_arg10 main_v13 main_v16
-- ==== Kernel.lean ====
abbrev S4096 : Shape := ⟨1, ![4096]⟩
abbrev S2048x1 : Shape := ⟨2, ![2048, 1]⟩
abbrev S2048x2048 : Shape := ⟨2, ![2048, 2048]⟩
abbrev S100000x2048 : Shape := ⟨2, ![100000, 2048]⟩
abbrev S4096x1 : Shape := ⟨2, ![4096, 1]⟩
abbrev S4096x4 : Shape := ⟨2, ![4096, 4]⟩
abbrev S_ : Shape := ⟨0, ![]⟩
abbrev S4096x2048 : Shape := ⟨2, ![4096, 2048]⟩
abbrev S16x8x128 : Shape := ⟨3, ![16, 8, 128]⟩
abbrev S256x4 : Shape := ⟨2, ![256, 4]⟩
abbrev S256x2048 : Shape := ⟨2, ![256, 2048]⟩
abbrev S1x8x128 : Shape := ⟨3, ![1, 8, 128]⟩
abbrev S256x1 : Shape := ⟨2, ![256, 1]⟩
abbrev S256 : Shape := ⟨1, ![256]⟩
abbrev S1 : Shape := ⟨1, ![1]⟩
abbrev S1x1 : Shape := ⟨2, ![1, 1]⟩
abbrev S1x1x1 : Shape := ⟨3, ![1, 1, 1]⟩

abbrev nBuf : Space → Nat
  | .hbm => 53
  | .vmem => 10
  | .smem => 0
  | _ => 0

abbrev bufTy : (tb : Table) → Fin (tcTables nBuf tb) → BufTy
  | .hbm, ⟨0, _⟩ => ⟨S4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S2048x1, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S100000x2048, .f32⟩
  | .hbm, ⟨11, _⟩ => ⟨S4096, .i32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x4, .f32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S4096x2048, .f32⟩
  | .hbm, ⟨34, _⟩ => ⟨S4096x2048, .bf16⟩
  | .hbm, ⟨35, _⟩ => ⟨S2048x2048, .bf16⟩
  | .hbm, ⟨36, _⟩ => ⟨S2048x2048, .bf16⟩
  | .hbm, ⟨37, _⟩ => ⟨S2048x2048, .bf16⟩
  | .hbm, ⟨38, _⟩ => ⟨S2048x2048, .bf16⟩
  | .hbm, ⟨39, _⟩ => ⟨S16x8x128, .f32⟩
  | .hbm, ⟨40, _⟩ => ⟨S_, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x1, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048x1, .f32⟩
  | .hbm, ⟨52, _⟩ => ⟨S2048x1, .f32⟩
  | .local _ .vmem, ⟨0, _⟩ => ⟨S256x4, .f32⟩
  | .local _ .vmem, ⟨1, _⟩ => ⟨S256x4, .f32⟩
  | .local _ .vmem, ⟨2, _⟩ => ⟨S256x2048, .bf16⟩
  | .local _ .vmem, ⟨3, _⟩ => ⟨S256x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S2048x2048, .bf16⟩
  | .local _ .vmem, ⟨8, _⟩ => ⟨S1x8x128, .f32⟩
  | .local _ .vmem, ⟨9, _⟩ => ⟨S1x8x128, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_1 : Ref sig .tc := ⟨.hbm, 47, rfl⟩
abbrev main_v32 : Ref sig .tc := ⟨.hbm, 48, rfl⟩
abbrev main_v33 : Ref sig .tc := ⟨.hbm, 49, rfl⟩
abbrev main_cst_2 : Ref sig .tc := ⟨.hbm, 50, rfl⟩
abbrev main_v34 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S4096_S4096x1_0 : S4096.BroadcastsInDim S4096x1 (![0] : Fin 1 → Fin S4096x1.rank)
  concatenates_S4096x1_S4096x1_S4096x1_S4096x1_S4096x4_d1 : Shape.Concatenates [S4096x1, S4096x1, S4096x1, S4096x1] S4096x4 1
  bcast_S_S4096 : S_.BroadcastsInDim S4096 (![] : Fin 0 → Fin S4096.rank)
  bitsLt_bf16_f32 : FTy.bits .bf16 < FTy.bits .f32
  inb_S256x4_S256x1_0_0 : ∀ a, (![0, 0] : Fin 2 → Nat) a + S256x1.size a ≤ S256x4.size a
  h_S256x1 : 0 < S256x1.numel
  shapeCasts_S256x1_S256x1 : S256x1.ShapeCasts S256x1
  inb_S256x4_S256x1_0_1 : ∀ a, (![0, 1] : Fin 2 → Nat) a + S256x1.size a ≤ S256x4.size a
  inb_S256x4_S256x1_0_2 : ∀ a, (![0, 2] : Fin 2 → Nat) a + S256x1.size a ≤ S256x4.size a
  inb_S256x4_S256x1_0_3 : ∀ a, (![0, 3] : Fin 2 → Nat) a + S256x1.size a ≤ S256x4.size a
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  broadcasts_S256x1_S256x2048 : S256x1.Broadcasts S256x2048
  reduces_S256x2048_S256 : S256x2048.Reduces [1] S256
  shapeCasts_S256_S256x1 : S256.ShapeCasts S256x1
  reduces_S256x1_S1 : S256x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  reducesTo_S16x8x128_S_d0_1_2 : S16x8x128.ReducesTo [0, 1, 2] S_
  h_S_ : 0 < S_.numel
  bcast_S_S2048x1 : S_.BroadcastsInDim S2048x1 (![] : Fin 0 → Fin S2048x1.rank)
  gather_S100000x2048_S4096x1_S4096x2048_1_0_n_n_0_1_12048_wf : GatherDims.WF S100000x2048 S4096x1 S4096x2048 [1] [0] [] [0] [] 1 ![1, 2048]
  dot_S256x2048_S2048x2048_S256x2048_1_1_0_0_n_n_wf : DotDims.WF S256x2048 S2048x2048 S256x2048 [1] [1] [0] [0] [] []
  dot_S2048x2048_S2048x1_S2048x1_1_0_0_1_n_n_wf : DotDims.WF S2048x2048 S2048x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4.size a ≤ S4096x4.size a
  hwx0_0 : ∀ i : grid0.Coords, EltTy.bits .f32 = 32 ∨ (Rect.block (s := S4096x4) S256x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .bf16 = 32 ∨ (Rect.block (s := S4096x2048) S256x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S16x8x128.size a
  hwx0_6 : ∀ i : grid0.Coords, EltTy.bits .f32 = 32 ∨ (Rect.block (s := S16x8x128) S1x8x128.size (cc0_transform_6 i) (hinb0_6 i)).WholeWords (EltTy.packing .f32)

variable [Facts₀]

def gather_S100000x2048_S4096x1_S4096x2048_1_0_n_n_0_1_12048 : GatherDims S100000x2048 S4096x1 S4096x2048 where
  offsetDims := [1]
  collapsedSliceDims := [0]
  operandBatchingDims := []
  startIndicesBatchingDims := []
  startIndexMap := [0]
  indexVectorDim := 1
  sliceSizes := ![1, 2048]
  wf := gather_S100000x2048_S4096x1_S4096x2048_1_0_n_n_0_1_12048_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S2048x2048_S2048x1_S2048x1_1_0_0_1_n_n : DotDims S2048x2048 S2048x1 S2048x1 where
  lhsContracting := [1]
  rhsContracting := [0]
  lhsNonContracting := [0]
  rhsNonContracting := [1]
  lhsBatch := []
  rhsBatch := []
  wf := dot_S2048x2048_S2048x1_S2048x1_1_0_0_1_n_n_wf

abbrev win0_0 : Pipeline.Window sig grid0 :=
  Pipeline.Window.ofSpec (Memref.whole main_v12) S256x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096 : Shape := ⟨1, ![4096]⟩
abbrev S2048x1 : Shape := ⟨2, ![2048, 1]⟩
abbrev S2048x2048 : Shape := ⟨2, ![2048, 2048]⟩
abbrev S100000x2048 : Shape := ⟨2, ![100000, 2048]⟩
abbrev S_ : Shape := ⟨0, ![]⟩
abbrev S4096x1 : Shape := ⟨2, ![4096, 1]⟩
abbrev S4096x2048 : Shape := ⟨2, ![4096, 2048]⟩

abbrev nBuf : Space → Nat
  | .hbm => 64
  | .vmem => 0
  | .smem => 0
  | _ => 0

abbrev bufTy : (tb : Table) → Fin (tcTables nBuf tb) → BufTy
  | .hbm, ⟨0, _⟩ => ⟨S4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S2048x1, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S100000x2048, .f32⟩
  | .hbm, ⟨11, _⟩ => ⟨S4096, .i32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S4096x2048, .f32⟩
  | .hbm, ⟨29, _⟩ => ⟨S4096x1, .f32⟩
  | .hbm, ⟨30, _⟩ => ⟨S2048x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x1, .f32⟩
  | .hbm, ⟨35, _⟩ => ⟨S2048x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S2048x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x1, .f32⟩
  | .hbm, ⟨46, _⟩ => ⟨S2048x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S_, .f32⟩
  | .hbm, ⟨53, _⟩ => ⟨S2048x1, .f32⟩
  | .hbm, ⟨54, _⟩ => ⟨S2048x1, .f32⟩
  | .hbm, ⟨55, _⟩ => ⟨S2048x1, .f32⟩
  | .hbm, ⟨56, _⟩ => ⟨S2048x1, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_1 : Ref sig .tc := ⟨.hbm, 58, rfl⟩
abbrev main_v43 : Ref sig .tc := ⟨.hbm, 59, rfl⟩
abbrev main_v44 : Ref sig .tc := ⟨.hbm, 60, rfl⟩
abbrev main_cst_2 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  transposes_S2048x2048_S2048x2048_1_0 : S2048x2048.Transposes [1, 0] S2048x2048
  bcast_S4096x1_S4096x2048_0_1 : S4096x1.BroadcastsInDim S4096x2048 (![0, 1] : Fin 2 → Fin S4096x2048.rank)
  reducesTo_S4096x2048_S_d0_1 : S4096x2048.ReducesTo [0, 1] S_
  h_S_ : 0 < S_.numel
  bcast_S_S2048x1 : S_.BroadcastsInDim S2048x1 (![] : Fin 0 → Fin S2048x1.rank)
  gather_S100000x2048_S4096x1_S4096x2048_1_0_n_n_0_1_12048_wf : GatherDims.WF S100000x2048 S4096x1 S4096x2048 [1] [0] [] [0] [] 1 ![1, 2048]
  dot_S4096x2048_S2048x2048_S4096x2048_1_0_0_1_n_n_wf : DotDims.WF S4096x2048 S2048x2048 S4096x2048 [1] [0] [0] [1] [] []
  dot_S2048x2048_S2048x1_S2048x1_1_0_0_1_n_n_wf : DotDims.WF S2048x2048 S2048x1 S2048x1 [1] [0] [0] [1] [] []

variable [Facts₀]

def gather_S100000x2048_S4096x1_S4096x2048_1_0_n_n_0_1_12048 : GatherDims S100000x2048 S4096x1 S4096x2048 where
  offsetDims := [1]
  collapsedSliceDims := [0]
  operandBatchingDims := []
  startIndicesBatchingDims := []
  startIndexMap := [0]
  indexVectorDim := 1
  sliceSizes := ![1, 2048]
  wf := gather_S100000x2048_S4096x1_S4096x2048_1_0_n_n_0_1_12048_wf
def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S2048x2048_S2048x1_S2048x1_1_0_0_1_n_n : DotDims S2048x2048 S2048x1 S2048x1 where
  lhsContracting := [1]
  rhsContracting := [0]
  lhsNonContracting := [0]
  rhsNonContracting := [1]
  lhsBatch := []
  rhsBatch := []
  wf := dot_S2048x2048_S2048x1_S2048x1_1_0_0_1_n_n_wf

class Facts : Prop extends Facts₀ where

variable [Facts]
-- ==== Proof.K.Host.lean ====
/-
  The host program around the one region: twenty-seven host operations before it (the four interpolation
  coefficients packed into a 4096×4 array, the row gather, the casts), the region, thirteen after it (the sum of the
  tiles' blocks, the product W_ih·hx, the logistic function). The buffer contents when the region is entered are the
  fold of the first stretch over the launch contents; no operation of either stretch writes an argument array or an
  array the region stages, and none allocates.
-/
import proofs.«430447_j24885040513384_2_alg».proof.Proof.Gen.Kernel.Launch
import proofs.«430447_j24885040513384_2_alg».proof.Proof.Gen.Kernel.Points
import Idealize.ShloMosaic.Lib.Pipeline.FrameBody
import Idealize.ShloMosaic.Lib.Pipeline.FrameSuffix

set_option maxRecDepth 16384

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the first stretch, the region, the second stretch: it reduces to the region continued by the second. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped TensorCore buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array the region stages (each writes its own result buffer only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any after it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any after it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any after it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any after it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any after it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any after it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any after it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any after it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any after it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation before the region writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any after it: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host operation before the region writes `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any after it: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host operation before the region writes `main_arg11`. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any after it: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

end Cert.Kernel.Fr

end
-- ==== Proof.K.Body.lean ====
/-
  The kernel body's triple for one tile of 256 rows.

  The body reads the four coefficient columns of its 256×4 coefficient block, the 256×2048 block of gathered rows and
  the four resident 2048×2048 weight matrices, and stores ONE value into its 1×8×128 output block: the tile's scalar
  (the sum over the tile's rows and all 2048 columns of c·((a·X W₁ᵀ + b·X W₂ᵀ) W₃ᵀ) + d·((a·X W₁ᵀ + b·X W₂ᵀ) W₄ᵀ))
  times 2⁻¹⁰, broadcast over the 8×128 block. The output buffer is read once before the store; that value is not used.
  What the output buffer holds afterwards is stated as the canonical form of that single covering store.
-/
import proofs.«430447_j24885040513384_2_alg».proof.Proof.Gen.Kernel.Launch
import proofs.«430447_j24885040513384_2_alg».proof.Proof.Gen.Kernel.Skeleton
import proofs.«430447_j24885040513384_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- Column k of the coefficient block (k = 0 … 3): the tile's a, b, c, d. -/
abbrev rA : Rect S256x4 := Rect.unit (s := S256x4) ![0, 0] S256x1.size inb_S256x4_S256x1_0_0
abbrev rB : Rect S256x4 := Rect.unit (s := S256x4) ![0, 1] S256x1.size inb_S256x4_S256x1_0_1
abbrev rC : Rect S256x4 := Rect.unit (s := S256x4) ![0, 2] S256x1.size inb_S256x4_S256x1_0_2
abbrev rD : Rect S256x4 := Rect.unit (s := S256x4) ![0, 3] S256x1.size inb_S256x4_S256x1_0_3
/-- The whole block of gathered rows. -/
abbrev rX : Rect S256x2048 := Rect.unit (s := S256x2048) ![0, 0] S256x2048.size inb_S256x2048_S256x2048_0_0
/-- A whole weight matrix. -/
abbrev rW : Rect S2048x2048 := Rect.unit (s := S2048x2048) ![0, 0] S2048x2048.size inb_S2048x2048_S2048x2048_0_0
/-- The whole output block. -/
abbrev rO : Rect S1x8x128 := Rect.unit (s := S1x8x128) ![0, 0, 0] S1x8x128.size inb_S1x8x128_S1x8x128_0_0_0

/-! ## What the body leaves in the output block -/

/-- The output block after the body, from the six input blocks: its one store. -/
def outBlk (x0 : Vec F S256x4 .f32) (x1 : Vec F S256x2048 .bf16) (x2 x3 x4 x5 : Vec F S2048x2048 .bf16) : Vec F S1x8x128 .f32 :=
  View.canon [⟨rO, k0_pay1 (k0_pay2 (View.ld x0 rA) (View.ld x0 rB) (View.ld x0 rC) (View.ld x0 rD) (View.ld x1 rX)
    (View.ld x2 rW) (View.ld x3 rW) (View.ld x4 rW) (View.ld x5 rW))⟩]

/-- The one store covers the block. -/
theorem coverO (p0 : Vec F S1x8x128 .f32) (y : S1x8x128.Idx) :
    ∃ pc ∈ ([⟨rO, p0⟩] : List (View.Piece (Elt F) S1x8x128 .f32)), y ∈ pc.1.set :=
  View.cover_of_tiled [⟨rO, p0⟩] S1x8x128.size (by rfl) y

/-! ## The body's triple -/

set_option maxHeartbeats 1000000 in
/-- On whole staging memrefs, the inputs at contents `x0 … x5` and the output at anything, the body runs to the
    continuation with the inputs as they were and the output at `outBlk` of the inputs. -/
theorem sound_kernel (c : Dev nD) (E : Set ℕ) (i : grid0.Coords)
    (arg1 : Memref sig .tc .vmem S256x4 .f32) (harg1 : arg1.IsWhole) (arg2 : Memref sig .tc .vmem S256x2048 .bf16) (harg2 : arg2.IsWhole)
    (arg3 : Memref sig .tc .vmem S2048x2048 .bf16) (harg3 : arg3.IsWhole) (arg4 : Memref sig .tc .vmem S2048x2048 .bf16) (harg4 : arg4.IsWhole)
    (arg5 : Memref sig .tc .vmem S2048x2048 .bf16) (harg5 : arg5.IsWhole) (arg6 : Memref sig .tc .vmem S2048x2048 .bf16) (harg6 : arg6.IsWhole)
    (arg7 : Memref sig .tc .vmem S1x8x128 .f32) (harg7 : arg7.IsWhole)
    (x0 : Vec F S256x4 .f32) (x1 : Vec F S256x2048 .bf16) (x2 x3 x4 x5 : Vec F S2048x2048 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E
          (cc0__strnn_kernel i arg1 harg1 arg2 harg2 arg3 harg3 arg4 harg4 arg5 harg5 arg6 harg6 arg7 harg7) K := by
  simp only [cc0__strnn_kernel_eq_skeleton]; unfold cc0__strnn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (coverO _)

end Cert.Kernel.Fr

end
-- ==== Proof.K.Frame.lean ====
/-
  The frame run of the program: the proof data of its one pipeline (after the body at a tile, each input window's
  buffer still holds its block and the output window's holds the tile's block `outBlk` of the input blocks), the body
  obligation at every tile from the body's triple, and the run of @main — the first stretch of host operations, the
  sixteen tiles, the second stretch. Its post names every staged array after the run and every other unscoped buffer
  after the second stretch; read at the twelve argument arrays it says they end as launched.
-/
import proofs.«430447_j24885040513384_2_alg».proof.Proof.K.Host
import proofs.«430447_j24885040513384_2_alg».proof.Proof.K.Body

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every tile, whether the tile fetched it or not (the
    four weight matrices are fetched once; their block index never moves). -/

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments after the run -/

/-- From a run to the frame post, the twelve argument arrays end as launched: none is staged by a window, and no host
    operation writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c)⟩) h

/-! ## The proof data -/

/-- The arrays as the region finds them; after the body at tile `t` each input's buffer at its block and the output's at
    `outBlk` of the input blocks; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outBlk (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation -/

/-- What the body is called with at tile `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any tile: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, each staged array then at what
    the proof data's write-backs make of it and every other unscoped buffer as the second stretch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (run_main m ρ)

end Cert.Kernel.Fr

end
-- ==== Proof.KI.Host.lean ====
/-
  The host program around the one region: twenty-seven host operations before it (the four interpolation
  coefficients packed into a 4096×4 array, the row gather, the casts), the region, thirteen after it (the sum of the
  tiles' blocks, the product W_ih·hx, the logistic function). The buffer contents when the region is entered are the
  fold of the first stretch over the launch contents; no operation of either stretch writes an argument array or an
  array the region stages, and none allocates.
-/
import proofs.«430447_j24885040513384_2_alg».proof.Proof.Gen.KernelIdeal.Launch
import proofs.«430447_j24885040513384_2_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the first stretch, the region, the second stretch: it reduces to the region continued by the second. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped TensorCore buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array the region stages (each writes its own result buffer only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any after it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any after it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any after it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any after it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any after it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any after it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any after it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any after it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any after it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation before the region writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any after it: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host operation before the region writes `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any after it: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host operation before the region writes `main_arg11`. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any after it: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

end Cert.KernelIdeal.Fr

end
-- ==== Proof.KI.Body.lean ====
/-
  The kernel body's triple for one tile of 256 rows.

  The body reads the four coefficient columns of its 256×4 coefficient block, the 256×2048 block of gathered rows and
  the four resident 2048×2048 weight matrices, and stores ONE value into its 1×8×128 output block: the tile's scalar
  (the sum over the tile's rows and all 2048 columns of c·((a·X W₁ᵀ + b·X W₂ᵀ) W₃ᵀ) + d·((a·X W₁ᵀ + b·X W₂ᵀ) W₄ᵀ))
  times 2⁻¹⁰, broadcast over the 8×128 block. The output buffer is read once before the store; that value is not used.
  What the output buffer holds afterwards is stated as the canonical form of that single covering store.
-/
import proofs.«430447_j24885040513384_2_alg».proof.Proof.Gen.KernelIdeal.Launch
import proofs.«430447_j24885040513384_2_alg».proof.Proof.Gen.KernelIdeal.Skeleton
import proofs.«430447_j24885040513384_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- Column k of the coefficient block (k = 0 … 3): the tile's a, b, c, d. -/
abbrev rA : Rect S256x4 := Rect.unit (s := S256x4) ![0, 0] S256x1.size inb_S256x4_S256x1_0_0
abbrev rB : Rect S256x4 := Rect.unit (s := S256x4) ![0, 1] S256x1.size inb_S256x4_S256x1_0_1
abbrev rC : Rect S256x4 := Rect.unit (s := S256x4) ![0, 2] S256x1.size inb_S256x4_S256x1_0_2
abbrev rD : Rect S256x4 := Rect.unit (s := S256x4) ![0, 3] S256x1.size inb_S256x4_S256x1_0_3
/-- The whole block of gathered rows. -/
abbrev rX : Rect S256x2048 := Rect.unit (s := S256x2048) ![0, 0] S256x2048.size inb_S256x2048_S256x2048_0_0
/-- A whole weight matrix. -/
abbrev rW : Rect S2048x2048 := Rect.unit (s := S2048x2048) ![0, 0] S2048x2048.size inb_S2048x2048_S2048x2048_0_0
/-- The whole output block. -/
abbrev rO : Rect S1x8x128 := Rect.unit (s := S1x8x128) ![0, 0, 0] S1x8x128.size inb_S1x8x128_S1x8x128_0_0_0

/-! ## What the body leaves in the output block -/

/-- The output block after the body, from the six input blocks: its one store. -/
def outBlk (x0 : Vec F S256x4 .f32) (x1 : Vec F S256x2048 .bf16) (x2 x3 x4 x5 : Vec F S2048x2048 .bf16) : Vec F S1x8x128 .f32 :=
  View.canon [⟨rO, k0_pay1 (k0_pay2 (View.ld x0 rA) (View.ld x0 rB) (View.ld x0 rC) (View.ld x0 rD) (View.ld x1 rX)
    (View.ld x2 rW) (View.ld x3 rW) (View.ld x4 rW) (View.ld x5 rW))⟩]

/-- The one store covers the block. -/
theorem coverO (p0 : Vec F S1x8x128 .f32) (y : S1x8x128.Idx) :
    ∃ pc ∈ ([⟨rO, p0⟩] : List (View.Piece (Elt F) S1x8x128 .f32)), y ∈ pc.1.set :=
  View.cover_of_tiled [⟨rO, p0⟩] S1x8x128.size (by rfl) y

/-! ## The body's triple -/

set_option maxHeartbeats 1000000 in
/-- On whole staging memrefs, the inputs at contents `x0 … x5` and the output at anything, the body runs to the
    continuation with the inputs as they were and the output at `outBlk` of the inputs. -/
theorem sound_kernel (c : Dev nD) (E : Set ℕ) (i : grid0.Coords)
    (arg1 : Memref sig .tc .vmem S256x4 .f32) (harg1 : arg1.IsWhole) (arg2 : Memref sig .tc .vmem S256x2048 .bf16) (harg2 : arg2.IsWhole)
    (arg3 : Memref sig .tc .vmem S2048x2048 .bf16) (harg3 : arg3.IsWhole) (arg4 : Memref sig .tc .vmem S2048x2048 .bf16) (harg4 : arg4.IsWhole)
    (arg5 : Memref sig .tc .vmem S2048x2048 .bf16) (harg5 : arg5.IsWhole) (arg6 : Memref sig .tc .vmem S2048x2048 .bf16) (harg6 : arg6.IsWhole)
    (arg7 : Memref sig .tc .vmem S1x8x128 .f32) (harg7 : arg7.IsWhole)
    (x0 : Vec F S256x4 .f32) (x1 : Vec F S256x2048 .bf16) (x2 x3 x4 x5 : Vec F S2048x2048 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E
          (cc0__strnn_kernel i arg1 harg1 arg2 harg2 arg3 harg3 arg4 harg4 arg5 harg5 arg6 harg6 arg7 harg7) K := by
  simp only [cc0__strnn_kernel_eq_skeleton]; unfold cc0__strnn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (coverO _)

end Cert.KernelIdeal.Fr

end
-- ==== Proof.KI.Frame.lean ====
/-
  The frame run of the program: the proof data of its one pipeline (after the body at a tile, each input window's
  buffer still holds its block and the output window's holds the tile's block `outBlk` of the input blocks), the body
  obligation at every tile from the body's triple, and the run of @main — the first stretch of host operations, the
  sixteen tiles, the second stretch. Its post names every staged array after the run and every other unscoped buffer
  after the second stretch; read at the twelve argument arrays it says they end as launched.
-/
import proofs.«430447_j24885040513384_2_alg».proof.Proof.KI.Host
import proofs.«430447_j24885040513384_2_alg».proof.Proof.KI.Body

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every tile, whether the tile fetched it or not (the
    four weight matrices are fetched once; their block index never moves). -/

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments after the run -/

/-- From a run to the frame post, the twelve argument arrays end as launched: none is staged by a window, and no host
    operation writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c)⟩) h

/-! ## The proof data -/

/-- The arrays as the region finds them; after the body at tile `t` each input's buffer at its block and the output's at
    `outBlk` of the input blocks; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outBlk (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation -/

/-- What the body is called with at tile `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any tile: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, each staged array then at what
    the proof data's write-backs make of it and every other unscoped buffer as the second stretch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (run_main m ρ)

end Cert.KernelIdeal.Fr

end
-- ==== Proof.Spec.lean ====
/-
  The mathematics the two programs share, over the extended reals.

  One STAGE of the recurrence: for coefficient vectors a, b over the rows, a row-indexed matrix X with 2048 columns and
  two 2048×2048 weight matrices W₁, W₂, the entry (i, j) of  a·(X W₁ᵀ) + b·(X W₂ᵀ)  is
      a i · Σₖ X i k · W₁ j k  +  b i · Σₖ X i k · W₂ j k .
  The result both programs sum is two stages: s = stage c d (stage a b X W₁ W₂) W₃ W₄. A stage's entry at row i reads
  only row i of its operands, so a stage over the 256 rows of a tile IS the stage over all 4096 rows read at the tile's
  rows: the definition is generic in the row index and commutes with re-indexing the rows by unfolding.

  The kernel sums s tile by tile: tile t's total P t, scaled by 2⁻¹⁰ and written to all 8·128 = 1024 entries of the
  tile's output block, the blocks then summed. On the extended reals 1024 copies of x·2⁻¹⁰ add up to x for EVERY x —
  for a real x by arithmetic, for ±∞ because a positive multiple of ±∞ is ±∞ and ±∞ added to itself is ±∞ — and sums
  regroup freely (addition is commutative and associative, infinities included), so the blocks' total is the total of
  s over all 4096 × 2048 entries.
-/
import Idealize.ShloMosaic.PureOps.Ideal

noncomputable section

namespace Cert.Spec

open scoped BigOperators

/-- Entry (i, j) of  a·(X W₁ᵀ) + b·(X W₂ᵀ). -/
def stage {ι : Type} (a b : ι → EReal) (X : ι → Fin 2048 → EReal) (W1 W2 : Fin 2048 → Fin 2048 → EReal)
    (i : ι) (j : Fin 2048) : EReal :=
  a i * (∑ k : Fin 2048, X i k * W1 j k) + b i * (∑ k : Fin 2048, X i k * W2 j k)

/-- Row r of tile t among the 4096 rows. -/
def row (t : Fin 16) (r : Fin 256) : Fin 4096 := ⟨t.val * 256 + r.val, by have := t.isLt; have := r.isLt; omega⟩

/-- The rows are the tiles' rows, each once. -/
def rowEquiv : Fin 16 × Fin 256 ≃ Fin 4096 where
  toFun p := row p.1 p.2
  invFun i := (⟨i.val / 256, by have := i.isLt; omega⟩, ⟨i.val % 256, by omega⟩)
  left_inv p := by
    obtain ⟨t, r⟩ := p
    have ht := t.isLt; have hr := r.isLt
    apply Prod.ext <;> apply Fin.ext <;> simp only [row] <;> omega
  right_inv i := by
    apply Fin.ext; simp only [row]; omega

/-- A sum over the rows is the sum over the tiles of the sum over a tile's rows. -/
theorem sum_rows (f : Fin 4096 → EReal) : ∑ t : Fin 16, ∑ r : Fin 256, f (row t r) = ∑ i : Fin 4096, f i := by
  rw [← Equiv.sum_comp rowEquiv f, Fintype.sum_prod_type]
  rfl

theorem nsmul_bot : ∀ n : ℕ, 0 < n → n • (⊥ : EReal) = ⊥
  | 0, h => absurd h (lt_irrefl 0)
  | n + 1, _ => by rw [succ_nsmul, EReal.add_bot]

theorem nsmul_top : ∀ n : ℕ, 0 < n → n • (⊤ : EReal) = ⊤
  | 0, h => absurd h (lt_irrefl 0)
  | 1, _ => one_nsmul _
  | n + 2, _ => by rw [succ_nsmul, nsmul_top (n + 1) (Nat.succ_pos n), EReal.top_add_top]

/-- 1024 copies of x·2⁻¹⁰ add up to x, for every extended real x. -/
theorem nsmul_1024 (x : EReal) : 1024 • (x * ((1 / 1024 : ℝ) : EReal)) = x := by
  have hc : (0 : ℝ) < 1 / 1024 := by norm_num
  induction x using EReal.rec with
  | bot => rw [EReal.bot_mul_coe_of_pos hc, nsmul_bot 1024 (by norm_num)]
  | top => rw [EReal.top_mul_coe_of_pos hc, nsmul_top 1024 (by norm_num)]
  | coe r =>
    rw [← EReal.coe_mul, ← EReal.coe_nsmul]
    congr 1
    rw [nsmul_eq_mul]; push_cast; ring

/-- An 8×128 block filled with x·2⁻¹⁰ sums to x. -/
theorem sum_block (x : EReal) : ∑ _r : Fin 8, ∑ _l : Fin 128, x * ((1 / 1024 : ℝ) : EReal) = x := by
  simp only [Finset.sum_const, Finset.card_univ, Fintype.card_fin]
  rw [← mul_nsmul]
  exact nsmul_1024 x

/-- The blocks' total is the total over all rows. -/
theorem sum_tiles (S : Fin 4096 → Fin 2048 → EReal) :
    ∑ t : Fin 16, ∑ _r : Fin 8, ∑ _l : Fin 128, (∑ r : Fin 256, ∑ j : Fin 2048, S (row t r) j) * ((1 / 1024 : ℝ) : EReal)
      = ∑ i : Fin 4096, ∑ j : Fin 2048, S i j := by
  simp only [sum_block]
  exact sum_rows fun i => ∑ j : Fin 2048, S i j

/-- The f32 pattern of 2⁻¹⁰ denotes the real 1/1024. -/
theorem ofBits_inv1024 : Idealize.ShloMosaic.Ideal.ofBits .f32 0x3A800000#32 = ((1 / 1024 : ℝ) : EReal) := by
  simp [Idealize.ShloMosaic.Ideal.ofBits, Idealize.ShloMosaic.Ideal.ieee, -EReal.coe_mul]; norm_num

end Cert.Spec

end
-- ==== Proof.LibRowsCols.lean ====
/-
  Rows and columns of a rank-2 vector read at an index, at any extents.

  A vector of `a` entries viewed as an `a × 1` column reads its entry at every `(i, 0)`; a column spread across `b`
  lanes reads, at `(i, j)`, the column's entry `i`. A sum over the lane axis of an `a × b` vector, at row `i`, is the
  sum of that row's entries; over the sublane axis, at lane `j`, the sum of that lane's column. A maximum over the lane
  axis, at row `i`, is the maximum of the row's entries taken from the accumulator's value, in any order.
-/
import Idealize.ShloMosaic.PureOps.Ideal.Laws
import Idealize.ShloMosaic.Lib.Pipeline.Value
import Idealize.ShloMosaic.Lib.ValueIdx

noncomputable section

namespace Idealize.ShloMosaic.RowsCols

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

variable {φ : FTy}

/-- The sum over the lanes of an `[a, b]` vector, at row `i`: the sum of the row. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  show ∑ k : Fin b, src (h.lift (ix1 i) k) = _
  refine Finset.sum_congr rfl fun k _ => congrArg src (funext fun c => Fin.ext ?_)
  match c with
  | ⟨0, _⟩ => rfl
  | ⟨1, _⟩ => rfl

/-- The sum over the sublanes of an `[a, b]` vector, at lane `j`: the sum of the column. -/
theorem sublaneSum_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  show ∑ k : Fin a, src (h.lift (ix1 j) k) = _
  refine Finset.sum_congr rfl fun k _ => congrArg src (funext fun c => Fin.ext ?_)
  match c with
  | ⟨0, _⟩ => rfl
  | ⟨1, _⟩ => rfl

/-- The maximum over the lanes of an `[a, b]` vector, at row `i`: the maximum of the row, from the accumulator's value. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  show (Finset.univ : Finset (Fin b)).fold max (Ideal.ofBits φ acc) (src ∘ h.lift (ix1 i)) = _
  refine congrArg (fun g => (Finset.univ : Finset (Fin b)).fold max (Ideal.ofBits φ acc) g)
    (funext fun k => congrArg src (funext fun c => Fin.ext ?_))
  match c with
  | ⟨0, _⟩ => rfl
  | ⟨1, _⟩ => rfl

end Idealize.ShloMosaic.RowsCols

end
-- ==== Proof.LibDot.lean ====
/-
  A matrix product with one contracted axis, read at one element of its result.

  A product of a rank-2 left operand and a rank-2 right operand with a single contracted axis on each side and
  no batch axis is, at an output position, the sum over the contracted coordinate of the two operands' entries
  there. The file states this for the three arrangements of axes a dense layer meets: rows by columns
  (left contracted on axis 1, right on axis 0), a left operand contracted on its FIRST axis against a right
  operand contracted on its last (the product written transposed), and both operands contracted on their first
  axis. Each lemma is generic in the extents and takes the dimension record's lists as hypotheses, which a
  printed record supplies by rfl.
-/
import Idealize.ShloMosaic.PureOps.Ideal
import Idealize.ShloMosaic.PureOps.Ideal.Laws
import Idealize.ShloMosaic.Lib.ValueIdx

open scoped BigOperators

namespace Cert.Lib.Dot

open Idealize.ShloMosaic
open Idealize.ShloMosaic.ValueIdx

variable {sl sr so : Shape} (d : DotDims sl sr so)

/-- Two reads of an index at positions with equal values agree. -/
theorem idx_val_congr {s : Shape} (j : s.Idx) (p q : Nat) (hp : p < s.rank) (hq : q < s.rank) (h : p = q) :
    (j ⟨p, hp⟩).val = (j ⟨q, hq⟩).val := by subst h; rfl

/-- With no batch axis and one kept left axis, the left operand's index on that axis is the result's first
    coordinate. -/
theorem lhsIdx_val_kept {nl : Fin sl.rank} (hb : d.lhsBatch = []) (hn : d.lhsNonContracting = [nl])
    (j : so.Idx) (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  exact idx_val_congr j _ _ _ _ (by simp [hb, hn])

/-- With no batch axis, one kept left axis and one kept right axis, the right operand's index on its kept axis
    is the result's second coordinate. -/
theorem rhsIdx_val_kept {nl : Fin sl.rank} {nr : Fin sr.rank} (hlb : d.lhsBatch = []) (hrb : d.rhsBatch = [])
    (hln : d.lhsNonContracting = [nl]) (hrn : d.rhsNonContracting = [nr])
    (j : so.Idx) (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hrn]; exact List.mem_singleton.mpr rfl
  unfold DotDims.rhsIdx
  rw [dif_neg hnb, dif_pos hmem]
  simp only [Fin.val_cast]
  exact idx_val_congr j _ _ _ _ (by simp [hlb, hln, hrn])

/-- One contracted axis: the contraction shape has rank one. -/
theorem contr_rank_one {cl : Fin sl.rank} (hc : d.lhsContracting = [cl]) : d.contr.rank = 1 := by
  rw [d.rank_contr, hc]; rfl

/-- One contracted axis: the contraction shape's extent is the left operand's extent on that axis. -/
theorem contr_size_one {cl : Fin sl.rank} (hc : d.lhsContracting = [cl]) :
    d.contr.size ⟨0, by rw [contr_rank_one d hc]; exact Nat.one_pos⟩ = sl.size cl := by
  have h := d.size_contr 0 (by rw [hc]; exact Nat.one_pos)
  rw [h]
  exact congrArg sl.size (by simp [hc])

/-! ## The three arrangements, as sums over the contracted coordinate -/

section Arrangements

open Cert.Lib.Dot

/-- Rows by columns: the left operand [M, K] contracted on axis 1, the right [K, N] on axis 0. -/
theorem sum_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 p k := by
    funext a; refine Fin.ext ?_
    match a with
    | ⟨0, _⟩ => exact lhsIdx_val_kept d hlb hln _ _ Nat.zero_lt_two
    | ⟨1, _⟩ => exact (d.lhsIdx_val_of_single hlc _ _).trans (contrEquiv1_symm_val d K _ _ k)
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-- The product written transposed: the left operand [K, M] contracted on axis 0, the right [N, K] on axis 1;
    the result is [M, N]. -/
theorem sum_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    ∑ k : d.contr.Idx, l (d.lhsIdx (ix2 p q) k) * r (d.rhsIdx (ix2 p q) k) = ∑ k : Fin K, l (ix2 k p) * r (ix2 q k) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 q k := by
    funext a; refine Fin.ext ?_
    match a with
    | ⟨0, _⟩ => exact rhsIdx_val_kept d hlb hrb hln hrn _ _ Nat.one_lt_two
    | ⟨1, _⟩ => exact (d.rhsIdx_val_of_single hrc _ _).trans (contrEquiv1_symm_val d K _ _ k)
  rw [e1, e2]

/-- Both operands contracted on their first axis: the left [K, M], the right [K, N]; the result is [M, N]. -/
theorem sum_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 k p) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-! ## The three arrangements as properties of a dimension record (a printed record proves each by six rfl's) -/

/-- Rows by columns: left contracted on axis 1, right on axis 0, no batch axis. -/
def IsRowsCols {M K N : Nat} (d : DotDims ⟨2, ![M, K]⟩ ⟨2, ![K, N]⟩ ⟨2, ![M, N]⟩) : Prop :=
  d.lhsContracting = [1] ∧ d.rhsContracting = [0] ∧ d.lhsNonContracting = [0] ∧ d.rhsNonContracting = [1]
    ∧ d.lhsBatch = [] ∧ d.rhsBatch = []

/-- Left contracted on axis 0, right on axis 1, no batch axis. -/
def IsColsRows {M K N : Nat} (d : DotDims ⟨2, ![K, M]⟩ ⟨2, ![N, K]⟩ ⟨2, ![M, N]⟩) : Prop :=
  d.lhsContracting = [0] ∧ d.rhsContracting = [1] ∧ d.lhsNonContracting = [1] ∧ d.rhsNonContracting = [0]
    ∧ d.lhsBatch = [] ∧ d.rhsBatch = []

/-- Both contracted on axis 0, no batch axis. -/
def IsColsCols {M K N : Nat} (d : DotDims ⟨2, ![K, M]⟩ ⟨2, ![K, N]⟩ ⟨2, ![M, N]⟩) : Prop :=
  d.lhsContracting = [0] ∧ d.rhsContracting = [0] ∧ d.lhsNonContracting = [1] ∧ d.rhsNonContracting = [1]
    ∧ d.lhsBatch = [] ∧ d.rhsBatch = []

/-! ## The host product and the kernel's product into a zero accumulator, read at an element -/

/-- The host's rows-by-columns product at (p, q). -/
theorem hostDot_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  (Ideal.dotGeneral_apply d none .single l r (ix2 p q)).trans (sum_rows_cols d hlc hrc hln hrn hlb hrb l r p q)

/-- The kernel's rows-by-columns product into a zero accumulator at (p, q). -/
theorem matmul0_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  (Ideal.matmul_constant_zero_apply d none l r (ix2 p q)).trans (sum_rows_cols d hlc hrc hln hrn hlb hrb l r p q)

/-- The kernel's transposed product into a zero accumulator at (p, q). -/
theorem matmul0_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  (Ideal.matmul_constant_zero_apply d none l r (ix2 p q)).trans (sum_cols_rows d hlc hrc hln hrn hlb hrb l r p q)

/-- The kernel's product of two operands contracted on their first axes, into a zero accumulator, at (p, q). -/
theorem matmul0_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  (Ideal.matmul_constant_zero_apply d none l r (ix2 p q)).trans (sum_cols_cols d hlc hrc hln hrn hlb hrb l r p q)

/-- The host's rows-by-columns product at (p, q), from the record's property. -/
theorem hostDot_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  hostDot_rows_cols d h.1 h.2.1 h.2.2.1 h.2.2.2.1 h.2.2.2.2.1 h.2.2.2.2.2 l r p q

/-- The kernel's rows-by-columns product into zeros at (p, q), from the record's property. -/
theorem matmul0_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  matmul0_rows_cols d h.1 h.2.1 h.2.2.1 h.2.2.2.1 h.2.2.2.2.1 h.2.2.2.2.2 l r p q

/-- The kernel's transposed product into zeros at (p, q), from the record's property. -/
theorem matmul0_cr {M K N : Nat} {φ₁ φ₂ : FTy} (d : DotDims ⟨2, ![K, M]⟩ ⟨2, ![N, K]⟩ ⟨2, ![M, N]⟩) (h : IsColsRows d)
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  matmul0_cols_rows d h.1 h.2.1 h.2.2.1 h.2.2.2.1 h.2.2.2.2.1 h.2.2.2.2.2 l r p q

/-- The kernel's product of two operands contracted on their first axes, into zeros, at (p, q), from the record's
    property. -/
theorem matmul0_cc {M K N : Nat} {φ₁ φ₂ : FTy} (d : DotDims ⟨2, ![K, M]⟩ ⟨2, ![K, N]⟩ ⟨2, ![M, N]⟩) (h : IsColsCols d)
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  matmul0_cols_cols d h.1 h.2.1 h.2.2.1 h.2.2.2.1 h.2.2.2.2.1 h.2.2.2.2.2 l r p q

end Arrangements

end Cert.Lib.Dot
-- ==== Proof.LibDotT.lean ====
/-
  A matrix product A·Bᵀ read at one element of its result.

  The left operand [M, K] and the right operand [N, K] are both contracted on their LAST axis, with no batch axis: the
  product's entry (p, q) is the sum over k of  A p k · B q k. This is how a kernel multiplies by a weight matrix stored
  untransposed. Stated for the bare sum over the record's contraction index, for the host's product and for the
  kernel's product into a zero accumulator; generic in the extents, the record's lists taken as hypotheses.
-/
import proofs.«430447_j24885040513384_2_alg».proof.Proof.LibDot

open scoped BigOperators

namespace Cert.Lib.Dot

open Idealize.ShloMosaic
open Idealize.ShloMosaic.ValueIdx

/-- Both operands contracted on their last axis: the left [M, K], the right [N, K]; the result is [M, N]. -/
theorem sum_rows_rows {M K N : Nat} {φ₁ φ₂ : FTy} (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (l : FVec Ideal ⟨2, ![M, K]⟩ φ₁) (r : FVec Ideal ⟨2, ![N, K]⟩ φ₂) (p : Fin M) (q : Fin N) :
    ∑ k : d.contr.Idx, l (d.lhsIdx (ix2 p q) k) * r (d.rhsIdx (ix2 p q) k) = ∑ k : Fin K, l (ix2 p k) * r (ix2 q k) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 p k := by
    funext a; refine Fin.ext ?_
    match a with
    | ⟨0, _⟩ => exact lhsIdx_val_kept d hlb hln _ _ Nat.zero_lt_two
    | ⟨1, _⟩ => exact (d.lhsIdx_val_of_single hlc _ _).trans (contrEquiv1_symm_val d K _ _ k)
  have e2 : d.rhsIdx (ix2 p q) ((contrEquiv1 d K (contr_rank_one d hlc) (contr_size_one d hlc)).symm k) = ix2 q k := by
    funext a; refine Fin.ext ?_
    match a with
    | ⟨0, _⟩ => exact rhsIdx_val_kept d hlb hrb hln hrn _ _ Nat.one_lt_two
    | ⟨1, _⟩ => exact (d.rhsIdx_val_of_single hrc _ _).trans (contrEquiv1_symm_val d K _ _ k)
  rw [e1, e2]

/-- Left contracted on axis 1, right on axis 1, no batch axis. -/
def IsRowsRows {M K N : Nat} (d : DotDims ⟨2, ![M, K]⟩ ⟨2, ![N, K]⟩ ⟨2, ![M, N]⟩) : Prop :=
  d.lhsContracting = [1] ∧ d.rhsContracting = [1] ∧ d.lhsNonContracting = [0] ∧ d.rhsNonContracting = [0]
    ∧ d.lhsBatch = [] ∧ d.rhsBatch = []

/-- The host's product A·Bᵀ at (p, q). -/
theorem hostDot_rr {M K N : Nat} {φ₁ φ₂ : FTy} (d : DotDims ⟨2, ![M, K]⟩ ⟨2, ![N, K]⟩ ⟨2, ![M, N]⟩) (h : IsRowsRows d)
    (l : FVec Ideal ⟨2, ![M, K]⟩ φ₁) (r : FVec Ideal ⟨2, ![N, K]⟩ φ₂) (p : Fin M) (q : Fin N) :
    Host.dotGeneral (F := Ideal) d none l r (ix2 p q) = ∑ k : Fin K, l (ix2 p k) * r (ix2 q k) :=
  (Ideal.dotGeneral_apply d none .single l r (ix2 p q)).trans
    (sum_rows_rows d h.1 h.2.1 h.2.2.1 h.2.2.2.1 h.2.2.2.2.1 h.2.2.2.2.2 l r p q)

/-- The kernel's product A·Bᵀ into a zero accumulator at (p, q). -/
theorem matmul0_rr {M K N : Nat} {φ₁ φ₂ : FTy} (d : DotDims ⟨2, ![M, K]⟩ ⟨2, ![N, K]⟩ ⟨2, ![M, N]⟩) (h : IsRowsRows d)
    (l : FVec Ideal ⟨2, ![M, K]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 p k) * r (ix2 q k) :=
  (Ideal.matmul_constant_zero_apply d none l r (ix2 p q)).trans
    (sum_rows_rows d h.1 h.2.1 h.2.2.1 h.2.2.2.1 h.2.2.2.2.1 h.2.2.2.2.2 l r p q)

end Cert.Lib.Dot
-- ==== Proof.KI.Pay.lean ====
/-
  The kernel body's arithmetic read at an index, over the extended reals.

  From a tile's blocks — the four coefficient columns, the 256×2048 block X of gathered rows, the four weight
  matrices — the body computes, row by row, the second stage  c·(T W₃ᵀ) + d·(T W₄ᵀ)  of the first stage
  T = a·(X W₁ᵀ) + b·(X W₂ᵀ)  (a change of float format between the stages is the identity here), sums each row over
  its 2048 columns, sums the 256 row totals, scales the total by the constant 2⁻¹⁰ and spreads it over the 8×128 block.
-/
import proofs.«430447_j24885040513384_2_alg».proof.Proof.Gen.KernelIdeal.Skeleton
import proofs.«430447_j24885040513384_2_alg».proof.Proof.Spec
import proofs.«430447_j24885040513384_2_alg».proof.Proof.LibRowsCols
import proofs.«430447_j24885040513384_2_alg».proof.Proof.LibDotT
import Idealize.ShloMosaic.Lib.Pipeline.Value

noncomputable section

namespace Cert.KernelIdeal.Val

open Cert.KernelIdeal Cert.KernelIdeal.Gen Cert.Spec Cert.Lib.Dot
open Idealize.ShloMosaic Idealize.ShloMosaic.ValueIdx Idealize.ShloMosaic.RowsCols

/-- The printed product record multiplies by the untransposed weight: A·Bᵀ. -/
theorem dot_rr : IsRowsRows dot_S256x2048_S2048x2048_S256x2048_1_1_0_0_n_n := ⟨rfl, rfl, rfl, rfl, rfl, rfl⟩

/-- One stage on a tile's vectors, at (r, j): the stage of the tile's rows. -/
theorem tile_stage_apply {φx φw : FTy} (a b : FVec Ideal S256x1 .f32) (X : FVec Ideal S256x2048 φx) (W1 W2 : FVec Ideal S2048x2048 φw)
    (r : Fin 256) (j : Fin 2048) :
    addf (mulf (broadcastTo S256x2048 a Facts₀.broadcasts_S256x1_S256x2048)
          (matmul dot_S256x2048_S2048x2048_S256x2048_1_1_0_0_n_n none X W1 (constant S256x2048 .f32 0x00000000#32)))
        (mulf (broadcastTo S256x2048 b Facts₀.broadcasts_S256x1_S256x2048)
          (matmul dot_S256x2048_S2048x2048_S256x2048_1_1_0_0_n_n none X W2 (constant S256x2048 .f32 0x00000000#32))) (ix2 r j)
      = stage (fun r => a (ix2 r (0 : Fin 1))) (fun r => b (ix2 r (0 : Fin 1))) (fun r k => X (ix2 r k))
          (fun j k => W1 (ix2 j k)) (fun j k => W2 (ix2 j k)) r j := by
  show broadcastTo S256x2048 a _ (ix2 r j) * matmul _ none X W1 _ (ix2 r j)
      + broadcastTo S256x2048 b _ (ix2 r j) * matmul _ none X W2 _ (ix2 r j) = _
  rw [broadcastTo_a1_ab_apply a _ r j, broadcastTo_a1_ab_apply b _ r j,
    matmul0_rr _ dot_rr X W1 r j, matmul0_rr _ dot_rr X W2 r j]
  rfl

/-- The tile's row totals: row r of the block `k0_pay2` computes is the sum over the columns of the two stages. -/
theorem pay2_apply (v0 v2 v4 v6 : Vec Ideal S256x1 .f32) (v8 : Vec Ideal S256x2048 .bf16)
    (v10 v13 v22 v25 : Vec Ideal S2048x2048 .bf16) (r : Fin 256) :
    k0_pay2 (F := Ideal) v0 v2 v4 v6 v8 v10 v13 v22 v25 (ix2 r (0 : Fin 1))
      = ∑ j : Fin 2048, stage (fun r => v4 (ix2 r (0 : Fin 1))) (fun r => v6 (ix2 r (0 : Fin 1)))
          (stage (fun r => v0 (ix2 r (0 : Fin 1))) (fun r => v2 (ix2 r (0 : Fin 1))) (fun r k => v8 (ix2 r k))
            (fun j k => v10 (ix2 j k)) (fun j k => v13 (ix2 j k)))
          (fun j k => v22 (ix2 j k)) (fun j k => v25 (ix2 j k)) r j := by
  unfold k0_pay2
  simp only [shapeCast_self]
  refine (shapeCast_a_a1_apply _ _ r 0).trans ?_
  refine (laneSum_apply _ _ _ _ _ r).trans ?_
  refine Finset.sum_congr rfl fun j _ => ?_
  refine (tile_stage_apply _ _ _ _ _ r j).trans ?_
  refine congrArg (fun T => stage _ _ T _ _ r j) (funext fun r' => funext fun k => ?_)
  exact tile_stage_apply _ _ _ _ _ r' k

/-- The output block: every entry is the sum of the 256 row totals times the constant 2⁻¹⁰. -/
theorem pay1_apply (v34 : FVec Ideal S256x1 .f32) (q : Fin 1) (r : Fin 8) (l : Fin 128) :
    k0_pay1 (F := Ideal) v34 (ix3 q r l) = (∑ r' : Fin 256, v34 (ix2 r' (0 : Fin 1))) * ((1 / 1024 : ℝ) : EReal) := by
  unfold k0_pay1
  simp only [shapeCast_self]
  refine (broadcastTo_apply _ _ (ix3 q r l) (ix3 (0 : Fin 1) (0 : Fin 1) (0 : Fin 1)) fun a => ?_).trans ?_
  · match a with
    | ⟨0, _⟩ => rfl
    | ⟨1, _⟩ => rfl
    | ⟨2, _⟩ => rfl
  refine (shapeCast_apply _ _ _ (ix2 (0 : Fin 1) (0 : Fin 1)) (by
    rw [Shape.rowMajor_val_two, Shape.rowMajor_val_three]; rfl)).trans ?_
  show shapeCast S1x1 _ _ (ix2 (0 : Fin 1) (0 : Fin 1)) * Ideal.ofBits .f32 0x3A800000#32 = _
  rw [shapeCast_a_a1_apply _ _ (0 : Fin 1) (0 : Fin 1), ofBits_inv1024]
  exact congrArg (· * ((1 / 1024 : ℝ) : EReal)) (sublaneSum_apply _ _ _ _ _ (0 : Fin 1))

end Cert.KernelIdeal.Val

end
-- ==== Proof.KI.Entry.lean ====
/-
  What the staged arrays hold when the region is entered, and what a tile's blocks read.
-/
import proofs.«430447_j24885040513384_2_alg».proof.Proof.KI.Frame
import proofs.«430447_j24885040513384_2_alg».proof.Proof.KI.Pay
import Idealize.ShloMosaic.Lib.StableHlo.Run
import Idealize.ShloMosaic.Lib.Pipeline.Value

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The host values before the region -/

/-- The interpolation coefficients a = x/(x+y), b = y/(x+y) of two argument vectors. -/
def coefL (x y : S4096.Idx → EReal) : S4096.Idx → EReal := Host.divf (F := Ideal) (φ := .f32) x (addf (F := Ideal) (φ := .f32) x y)
def coefR (x y : S4096.Idx → EReal) : S4096.Idx → EReal := Host.divf (F := Ideal) (φ := .f32) y (addf (F := Ideal) (φ := .f32) x y)

/-- The gathered rows: row i of the table at the position word loc i, a negative word counted from the end. -/
def gath (tbl : S100000x2048.Idx → EReal) (loc : S4096.Idx → BitVec 32) : S4096x2048.Idx → EReal :=
  Host.gather gather_S100000x2048_S4096x1_S4096x2048_1_0_n_n_0_1_12048 tbl
    (broadcastInDim S4096x1 ![0] Facts₀.bcast_S4096_S4096x1_0
      (select (cmpi .slt loc (broadcastInDim S4096 ![] Facts₀.bcast_S_S4096 (constantI S_ 32 0#32)))
        (addi loc (broadcastInDim S4096 ![] Facts₀.bcast_S_S4096 (constantI S_ 32 100000#32))) loc))

theorem V_v12 (c : Dev nD) : (V m c main_v12 : S4096x4.Idx → EReal)
    = concatenate S4096x4 1
        [⟨S4096x1, broadcastInDim S4096x1 ![0] Facts₀.bcast_S4096_S4096x1_0 (coefL (m ((c : Thread nD τ).loc main_arg0)) (m ((c : Thread nD τ).loc main_arg1)))⟩,
         ⟨S4096x1, broadcastInDim S4096x1 ![0] Facts₀.bcast_S4096_S4096x1_0 (coefR (m ((c : Thread nD τ).loc main_arg0)) (m ((c : Thread nD τ).loc main_arg1)))⟩,
         ⟨S4096x1, broadcastInDim S4096x1 ![0] Facts₀.bcast_S4096_S4096x1_0 (coefL (m ((c : Thread nD τ).loc main_arg2)) (m ((c : Thread nD τ).loc main_arg3)))⟩,
         ⟨S4096x1, broadcastInDim S4096x1 ![0] Facts₀.bcast_S4096_S4096x1_0 (coefR (m ((c : Thread nD τ).loc main_arg2)) (m ((c : Thread nD τ).loc main_arg3)))⟩]
        Facts₀.concatenates_S4096x1_S4096x1_S4096x1_S4096x1_S4096x4_d1 := by
  show StableHlo.after hostOps0 (fun b => m (c, b)) (Proc.devRef .tc main_v12) = _
  after_results_simp
  rfl

theorem V_v20 (c : Dev nD) : (V m c main_v20 : S4096x2048.Idx → EReal)
    = gath (m ((c : Thread nD τ).loc main_arg10)) (m ((c : Thread nD τ).loc main_arg11)) := by
  show StableHlo.after hostOps0 (fun b => m (c, b)) (Proc.devRef .tc main_v20) = _
  after_results_simp
  rfl

theorem V_v21 (c : Dev nD) : (V m c main_v21 : S2048x2048.Idx → EReal) = m ((c : Thread nD τ).loc main_arg6) := by
  show StableHlo.after hostOps0 (fun b => m (c, b)) (Proc.devRef .tc main_v21) = _
  after_results_simp
  rfl
theorem V_v22 (c : Dev nD) : (V m c main_v22 : S2048x2048.Idx → EReal) = m ((c : Thread nD τ).loc main_arg7) := by
  show StableHlo.after hostOps0 (fun b => m (c, b)) (Proc.devRef .tc main_v22) = _
  after_results_simp
  rfl
theorem V_v23 (c : Dev nD) : (V m c main_v23 : S2048x2048.Idx → EReal) = m ((c : Thread nD τ).loc main_arg8) := by
  show StableHlo.after hostOps0 (fun b => m (c, b)) (Proc.devRef .tc main_v23) = _
  after_results_simp
  rfl
theorem V_v24 (c : Dev nD) : (V m c main_v24 : S2048x2048.Idx → EReal) = m ((c : Thread nD τ).loc main_arg9) := by
  show StableHlo.after hostOps0 (fun b => m (c, b)) (Proc.devRef .tc main_v24) = _
  after_results_simp
  rfl

end Cert.KernelIdeal.Val

end
-- ==== Proof.KI.Value.lean ====
/-
  The kernel side's value: what the output array of the region holds after the sixteen tiles, and what the host
  operations after the region make of it.

  A tile's coefficient block is rows 256·t … 256·t+255 of the packed 4096×4 coefficient array, whose four columns are
  the vectors a, b, c, d; its block of gathered rows is the same rows of the gathered array; the four weight windows
  are the whole matrices at every tile. So the tile's row totals are the two stages of Spec at the tile's rows, and the
  tile's output block holds, at every entry, the tile's total times 2⁻¹⁰. The blocks tile the 16×8×128 array. The host
  sum of that array from the initial value is the initial value plus the total of the two stages over all rows.
-/
import proofs.«430447_j24885040513384_2_alg».proof.Proof.KI.Entry

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The whole-array quantities -/

def cA (c : Dev nD) (i : Fin 4096) : EReal := coefL (m ((c : Thread nD τ).loc main_arg0)) (m ((c : Thread nD τ).loc main_arg1)) (ix1 i)
def cB (c : Dev nD) (i : Fin 4096) : EReal := coefR (m ((c : Thread nD τ).loc main_arg0)) (m ((c : Thread nD τ).loc main_arg1)) (ix1 i)
def cC (c : Dev nD) (i : Fin 4096) : EReal := coefL (m ((c : Thread nD τ).loc main_arg2)) (m ((c : Thread nD τ).loc main_arg3)) (ix1 i)
def cD (c : Dev nD) (i : Fin 4096) : EReal := coefR (m ((c : Thread nD τ).loc main_arg2)) (m ((c : Thread nD τ).loc main_arg3)) (ix1 i)
def Xf (c : Dev nD) (i : Fin 4096) (k : Fin 2048) : EReal := gath (m ((c : Thread nD τ).loc main_arg10)) (m ((c : Thread nD τ).loc main_arg11)) (ix2 i k)
def W1 (c : Dev nD) (j k : Fin 2048) : EReal := (m ((c : Thread nD τ).loc main_arg6)) (ix2 j k)
def W2 (c : Dev nD) (j k : Fin 2048) : EReal := (m ((c : Thread nD τ).loc main_arg7)) (ix2 j k)
def W3 (c : Dev nD) (j k : Fin 2048) : EReal := (m ((c : Thread nD τ).loc main_arg8)) (ix2 j k)
def W4 (c : Dev nD) (j k : Fin 2048) : EReal := (m ((c : Thread nD τ).loc main_arg9)) (ix2 j k)

/-- The summand: the two stages at row i, column j. -/
def Sf (c : Dev nD) : Fin 4096 → Fin 2048 → EReal :=
  stage (cC m c) (cD m c) (stage (cA m c) (cB m c) (Xf m c) (W1 m c) (W2 m c)) (W3 m c) (W4 m c)

/-- The output array: entry (q, r, l) is tile q's total times 2⁻¹⁰. -/
def G (c : Dev nD) : S16x8x128.Idx → EReal := fun i =>
  (∑ r : Fin 256, ∑ j : Fin 2048, Sf m c (row ⟨(i 0).val, (i 0).isLt⟩ r) j) * ((1 / 1024 : ℝ) : EReal)

/-! ## The packed coefficient array, column by column -/

theorem bcast_col (x : S4096.Idx → EReal) (i : Fin 4096) :
    broadcastInDim S4096x1 ![0] Facts₀.bcast_S4096_S4096x1_0 x (ix2 i (0 : Fin 1)) = x (ix1 i) :=
  broadcastInDim_apply _ Facts₀.bcast_S4096_S4096x1_0 x (ix2 i (0 : Fin 1)) (ix1 i) (fun a => match a with
    | ⟨0, _⟩ => by show i.val = if (4096 : Nat) = 1 then 0 else i.val; rw [if_neg (by decide)])

/-- The four columns packed side by side. -/
def pieces (c : Dev nD) : List ((s : Shape) × (s.Idx → EReal)) :=
  [⟨S4096x1, broadcastInDim S4096x1 ![0] Facts₀.bcast_S4096_S4096x1_0 (coefL (m ((c : Thread nD τ).loc main_arg0)) (m ((c : Thread nD τ).loc main_arg1)))⟩,
   ⟨S4096x1, broadcastInDim S4096x1 ![0] Facts₀.bcast_S4096_S4096x1_0 (coefR (m ((c : Thread nD τ).loc main_arg0)) (m ((c : Thread nD τ).loc main_arg1)))⟩,
   ⟨S4096x1, broadcastInDim S4096x1 ![0] Facts₀.bcast_S4096_S4096x1_0 (coefL (m ((c : Thread nD τ).loc main_arg2)) (m ((c : Thread nD τ).loc main_arg3)))⟩,
   ⟨S4096x1, broadcastInDim S4096x1 ![0] Facts₀.bcast_S4096_S4096x1_0 (coefR (m ((c : Thread nD τ).loc main_arg2)) (m ((c : Thread nD τ).loc main_arg3)))⟩]

theorem V_v12' (c : Dev nD) : (V m c main_v12 : S4096x4.Idx → EReal)
    = concatenate S4096x4 1 (pieces m c) Facts₀.concatenates_S4096x1_S4096x1_S4096x1_S4096x1_S4096x4_d1 := V_v12 m c

/-- Column k of the packed array at row i is the k-th coefficient vector at i. -/
theorem v12_col (c : Dev nD) (i : Fin 4096) (k : Nat) (hk : k < 4) (x : S4096.Idx → EReal)
    (hx : (pieces m c)[k]'hk = ⟨S4096x1, broadcastInDim S4096x1 ![0] Facts₀.bcast_S4096_S4096x1_0 x⟩) :
    V m c main_v12 (ix2 i (⟨k, hk⟩ : Fin 4)) = x (ix1 i) := by
  rw [V_v12']
  refine (concatenate_apply_piece (1 : Fin 2) (pieces m c) _ (ix2 i (⟨k, hk⟩ : Fin 4)) k hk S4096x1 _ hx rfl k ?_ (ix2 i (0 : Fin 1)) ?_ rfl).trans
    (bcast_col x i)
  · match k, hk with
    | 0, _ => rfl
    | 1, _ => rfl
    | 2, _ => rfl
    | 3, _ => rfl
  · intro b hb
    match b with
    | ⟨0, _⟩ => rfl
    | ⟨1, _⟩ => exact absurd rfl hb

/-! ## A tile's blocks, read -/

/-- The tile a grid point computes. -/
def tile (t : Fin cfg0.N) : Fin 16 := ⟨t.val, lt_of_lt_of_eq t.isLt N_0⟩

theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

theorem rdA (c : Dev nD) (t : Fin cfg0.N) (r : Fin 256) :
    View.ld (iblk m c 0 t) rA (ix2 r (0 : Fin 1)) = cA m c (row (tile t) r) := by
  have e := idx_facts t
  refine Eq.trans ?_ (v12_col m c (row (tile t) r) 0 (by decide) _ rfl)
  show V m c main_v12 (((cfg0.win 0).blk t).view.emb (rA.idx (ix2 r (0 : Fin 1)))) = _
  refine congrArg _ (funext fun a => Fin.ext ?_)
  match a with
  | ⟨0, _⟩ => show win0_0.index t (0 : Fin 2) * 256 + 1 * (0 + 1 * r.val) = t.val * 256 + r.val; omega
  | ⟨1, _⟩ => show win0_0.index t (1 : Fin 2) * 4 + 1 * (0 + 1 * 0) = 0; omega

theorem rdB (c : Dev nD) (t : Fin cfg0.N) (r : Fin 256) :
    View.ld (iblk m c 0 t) rB (ix2 r (0 : Fin 1)) = cB m c (row (tile t) r) := by
  have e := idx_facts t
  refine Eq.trans ?_ (v12_col m c (row (tile t) r) 1 (by decide) _ rfl)
  show V m c main_v12 (((cfg0.win 0).blk t).view.emb (rB.idx (ix2 r (0 : Fin 1)))) = _
  refine congrArg _ (funext fun a => Fin.ext ?_)
  match a with
  | ⟨0, _⟩ => show win0_0.index t (0 : Fin 2) * 256 + 1 * (0 + 1 * r.val) = t.val * 256 + r.val; omega
  | ⟨1, _⟩ => show win0_0.index t (1 : Fin 2) * 4 + 1 * (1 + 1 * 0) = 1; omega

theorem rdC (c : Dev nD) (t : Fin cfg0.N) (r : Fin 256) :
    View.ld (iblk m c 0 t) rC (ix2 r (0 : Fin 1)) = cC m c (row (tile t) r) := by
  have e := idx_facts t
  refine Eq.trans ?_ (v12_col m c (row (tile t) r) 2 (by decide) _ rfl)
  show V m c main_v12 (((cfg0.win 0).blk t).view.emb (rC.idx (ix2 r (0 : Fin 1)))) = _
  refine congrArg _ (funext fun a => Fin.ext ?_)
  match a with
  | ⟨0, _⟩ => show win0_0.index t (0 : Fin 2) * 256 + 1 * (0 + 1 * r.val) = t.val * 256 + r.val; omega
  | ⟨1, _⟩ => show win0_0.index t (1 : Fin 2) * 4 + 1 * (2 + 1 * 0) = 2; omega

theorem rdD (c : Dev nD) (t : Fin cfg0.N) (r : Fin 256) :
    View.ld (iblk m c 0 t) rD (ix2 r (0 : Fin 1)) = cD m c (row (tile t) r) := by
  have e := idx_facts t
  refine Eq.trans ?_ (v12_col m c (row (tile t) r) 3 (by decide) _ rfl)
  show V m c main_v12 (((cfg0.win 0).blk t).view.emb (rD.idx (ix2 r (0 : Fin 1)))) = _
  refine congrArg _ (funext fun a => Fin.ext ?_)
  match a with
  | ⟨0, _⟩ => show win0_0.index t (0 : Fin 2) * 256 + 1 * (0 + 1 * r.val) = t.val * 256 + r.val; omega
  | ⟨1, _⟩ => show win0_0.index t (1 : Fin 2) * 4 + 1 * (3 + 1 * 0) = 3; omega

theorem rdX (c : Dev nD) (t : Fin cfg0.N) (r : Fin 256) (k : Fin 2048) :
    View.ld (iblk m c 1 t) rX (ix2 r k) = Xf m c (row (tile t) r) k := by
  have e := idx_facts t
  refine Eq.trans ?_ (show V m c main_v20 (ix2 (row (tile t) r) k) = Xf m c (row (tile t) r) k from congrFun (V_v20 m c) _)
  show V m c main_v20 (((cfg0.win 1).blk t).view.emb (rX.idx (ix2 r k))) = _
  refine congrArg _ (funext fun a => Fin.ext ?_)
  match a with
  | ⟨0, _⟩ => show win0_1.index t (0 : Fin 2) * 256 + 1 * (0 + 1 * r.val) = t.val * 256 + r.val; omega
  | ⟨1, _⟩ => show win0_1.index t (1 : Fin 2) * 2048 + 1 * (0 + 1 * k.val) = k.val; omega

theorem rdW2 (c : Dev nD) (t : Fin cfg0.N) (j k : Fin 2048) :
    View.ld (iblk m c 2 t) rW (ix2 j k) = W1 m c j k := by
  have e := idx_facts t
  refine Eq.trans ?_ (show V m c main_v21 (ix2 j k) = W1 m c j k from congrFun (V_v21 m c) (ix2 j k))
  show V m c main_v21 (((cfg0.win 2).blk t).view.emb (rW.idx (ix2 j k))) = _
  refine congrArg _ (funext fun a => Fin.ext ?_)
  match a with
  | ⟨0, _⟩ => show win0_2.index t (0 : Fin 2) * 2048 + 1 * (0 + 1 * j.val) = j.val; omega
  | ⟨1, _⟩ => show win0_2.index t (1 : Fin 2) * 2048 + 1 * (0 + 1 * k.val) = k.val; omega

theorem rdW3 (c : Dev nD) (t : Fin cfg0.N) (j k : Fin 2048) :
    View.ld (iblk m c 3 t) rW (ix2 j k) = W2 m c j k := by
  have e := idx_facts t
  refine Eq.trans ?_ (show V m c main_v22 (ix2 j k) = W2 m c j k from congrFun (V_v22 m c) (ix2 j k))
  show V m c main_v22 (((cfg0.win 3).blk t).view.emb (rW.idx (ix2 j k))) = _
  refine congrArg _ (funext fun a => Fin.ext ?_)
  match a with
  | ⟨0, _⟩ => show win0_3.index t (0 : Fin 2) * 2048 + 1 * (0 + 1 * j.val) = j.val; omega
  | ⟨1, _⟩ => show win0_3.index t (1 : Fin 2) * 2048 + 1 * (0 + 1 * k.val) = k.val; omega

theorem rdW4 (c : Dev nD) (t : Fin cfg0.N) (j k : Fin 2048) :
    View.ld (iblk m c 4 t) rW (ix2 j k) = W3 m c j k := by
  have e := idx_facts t
  refine Eq.trans ?_ (show V m c main_v23 (ix2 j k) = W3 m c j k from congrFun (V_v23 m c) (ix2 j k))
  show V m c main_v23 (((cfg0.win 4).blk t).view.emb (rW.idx (ix2 j k))) = _
  refine congrArg _ (funext fun a => Fin.ext ?_)
  match a with
  | ⟨0, _⟩ => show win0_4.index t (0 : Fin 2) * 2048 + 1 * (0 + 1 * j.val) = j.val; omega
  | ⟨1, _⟩ => show win0_4.index t (1 : Fin 2) * 2048 + 1 * (0 + 1 * k.val) = k.val; omega

theorem rdW5 (c : Dev nD) (t : Fin cfg0.N) (j k : Fin 2048) :
    View.ld (iblk m c 5 t) rW (ix2 j k) = W4 m c j k := by
  have e := idx_facts t
  refine Eq.trans ?_ (show V m c main_v24 (ix2 j k) = W4 m c j k from congrFun (V_v24 m c) (ix2 j k))
  show V m c main_v24 (((cfg0.win 5).blk t).view.emb (rW.idx (ix2 j k))) = _
  refine congrArg _ (funext fun a => Fin.ext ?_)
  match a with
  | ⟨0, _⟩ => show win0_5.index t (0 : Fin 2) * 2048 + 1 * (0 + 1 * j.val) = j.val; omega
  | ⟨1, _⟩ => show win0_5.index t (1 : Fin 2) * 2048 + 1 * (0 + 1 * k.val) = k.val; omega

/-- The two stages on a tile's blocks are the two stages over all rows, at the tile's rows. -/
theorem tile_S (c : Dev nD) (t : Fin cfg0.N) (r' : Fin 256) (j : Fin 2048) :
    stage (fun r => View.ld (iblk m c 0 t) rC (ix2 r (0 : Fin 1))) (fun r => View.ld (iblk m c 0 t) rD (ix2 r (0 : Fin 1)))
        (stage (fun r => View.ld (iblk m c 0 t) rA (ix2 r (0 : Fin 1))) (fun r => View.ld (iblk m c 0 t) rB (ix2 r (0 : Fin 1)))
          (fun r k => View.ld (iblk m c 1 t) rX (ix2 r k))
          (fun j k => View.ld (iblk m c 2 t) rW (ix2 j k)) (fun j k => View.ld (iblk m c 3 t) rW (ix2 j k)))
        (fun j k => View.ld (iblk m c 4 t) rW (ix2 j k)) (fun j k => View.ld (iblk m c 5 t) rW (ix2 j k)) r' j
      = Sf m c (row (tile t) r') j := by
  simp only [rdA, rdB, rdC, rdD, rdX, rdW2, rdW3, rdW4, rdW5]
  rfl

/-! ## The output block and the output array -/

theorem hz3 : (![0, 0, 0] : Fin 3 → Nat) = fun _ => 0 := funext fun a => by fin_cases a <;> rfl

/-- Every entry of the block the body leaves is the sum of the tile's row totals times 2⁻¹⁰. -/
theorem outBlk_apply (x0 : Vec Ideal S256x4 .f32) (x1 : Vec Ideal S256x2048 .bf16) (x2 x3 x4 x5 : Vec Ideal S2048x2048 .bf16)
    (q : Fin 1) (r : Fin 8) (l : Fin 128) :
    outBlk x0 x1 x2 x3 x4 x5 (ix3 q r l)
      = (∑ r' : Fin 256, ∑ j : Fin 2048,
          stage (fun r => View.ld x0 rC (ix2 r (0 : Fin 1))) (fun r => View.ld x0 rD (ix2 r (0 : Fin 1)))
            (stage (fun r => View.ld x0 rA (ix2 r (0 : Fin 1))) (fun r => View.ld x0 rB (ix2 r (0 : Fin 1)))
              (fun r k => View.ld x1 rX (ix2 r k)) (fun j k => View.ld x2 rW (ix2 j k)) (fun j k => View.ld x3 rW (ix2 j k)))
            (fun j k => View.ld x4 rW (ix2 j k)) (fun j k => View.ld x5 rW (ix2 j k)) r' j) * ((1 / 1024 : ℝ) : EReal) := by
  unfold outBlk
  rw [View.canon_unit_zero hz3, pay1_apply]
  exact congrArg (· * ((1 / 1024 : ℝ) : EReal)) (Finset.sum_congr rfl fun r' _ => pay2_apply _ _ _ _ _ _ _ _ _ r')

/-- What tile t writes back is block t of the output array `G`. -/
theorem flushed_eq (c : Dev nD) (t : Fin cfg0.N) :
    (dats m 0 c).flushed 6 t = ((cfg0.win 6).blk t).view.read (Elt Ideal) (G m c) := by
  have e := idx_facts t
  show (cfg0.win 6).cut (grid0.coords t) ((dats m 0 c).after 6 t) = _
  rw [after6]
  funext y
  obtain ⟨q, r, l, rfl⟩ : ∃ (q : Fin 1) (r : Fin 8) (l : Fin 128), y = ix3 q r l := ⟨y 0, y 1, y 2, eq_ix3 y⟩
  refine (outBlk_apply (iblk m c 0 t) (iblk m c 1 t) (iblk m c 2 t) (iblk m c 3 t) (iblk m c 4 t) (iblk m c 5 t) q r l).trans ?_
  show _ = (∑ r' : Fin 256, ∑ j : Fin 2048,
    Sf m c (row ⟨(((cfg0.win 6).blk t).view.emb (ix3 q r l) 0).val, _⟩ r') j) * ((1 / 1024 : ℝ) : EReal)
  have hq : (⟨(((cfg0.win 6).blk t).view.emb (ix3 q r l) 0).val, (((cfg0.win 6).blk t).view.emb (ix3 q r l) 0).isLt⟩ : Fin 16) = tile t :=
    Fin.ext (by show win0_6.index t (0 : Fin 3) * 1 + 1 * q.val = t.val; have := q.isLt; omega)
  rw [hq]
  exact congrArg (· * ((1 / 1024 : ℝ) : EReal))
    (Finset.sum_congr rfl fun r' _ => Finset.sum_congr rfl fun j _ => tile_S m c t r' j)

/-- An index of the output array is in tile t's block iff each coordinate is in the block's range. -/
theorem mem_blk6 (t : Fin cfg0.N) (i : S16x8x128.Idx) :
    i ∈ ((cfg0.win 6).blk t).view.set ↔ ∀ a : Fin 3, win0_6.index t a * S1x8x128.size a ≤ (i a).val
      ∧ (i a).val < win0_6.index t a * S1x8x128.size a + S1x8x128.size a := by
  show i ∈ ((View.whole main_v25).slice (win0_6.rect t)).set ↔ _
  rw [View.set_slice_whole, Rect.mem_set_unit]
  exact Iff.rfl

/-- The sixteen blocks cover the output array: entry (q, r, l) is in tile q's block. -/
theorem cover6 (i : S16x8x128.Idx) : ∃ t : Fin cfg0.N, (cfg0.win 6).flush t = true ∧ i ∈ ((cfg0.win 6).blk t).view.set := by
  have h0 : (i 0).val < 16 := (i 0).isLt
  have h1 : (i 1).val < 8 := (i 1).isLt
  have h2 : (i 2).val < 128 := (i 2).isLt
  refine ⟨⟨(i 0).val, lt_of_lt_of_eq h0 N_0.symm⟩, flush0_6 _, ?_⟩
  obtain ⟨-, -, -, -, -, -, -, -, -, -, -, -, e0, e1, e2⟩ := idx_facts ⟨(i 0).val, lt_of_lt_of_eq h0 N_0.symm⟩
  rw [mem_blk6]
  intro a
  match a with
  | ⟨0, _⟩ =>
    show win0_6.index _ (0 : Fin 3) * 1 ≤ (i 0).val ∧ (i 0).val < win0_6.index _ (0 : Fin 3) * 1 + 1
    rw [e0]
    show (i 0).val * 1 ≤ (i 0).val ∧ (i 0).val < (i 0).val * 1 + 1
    constructor <;> omega
  | ⟨1, _⟩ => show win0_6.index _ (1 : Fin 3) * 8 ≤ (i 1).val ∧ (i 1).val < win0_6.index _ (1 : Fin 3) * 8 + 8; rw [e1]; constructor <;> omega
  | ⟨2, _⟩ => show win0_6.index _ (2 : Fin 3) * 128 ≤ (i 2).val ∧ (i 2).val < win0_6.index _ (2 : Fin 3) * 128 + 128; rw [e2]; constructor <;> omega

/-- The output array after the run. -/
theorem final6 (c : Dev nD) : (dats m 0 c).arrAt 6 cfg0.N = G m c :=
  (dats m 0 c).arrAt_eq_of_cover 6 (G m c) (fun t _ => flushed_eq m c t) cover6

end Cert.KernelIdeal.Val

end
-- ==== Proof.KI.Out.lean ====
/-
  The kernel program's result. After the region the host sums the output array from the initial value, adds the
  product W_ih·hx and applies the logistic function; the reference ends with the same operations on its own scalar, so
  they are kept as one function `tail` of the scalar. The scalar itself is the initial value plus the total of the two
  stages over all 4096 × 2048 entries: the array's entries are the sixteen tiles' totals times 2⁻¹⁰, each repeated
  8 × 128 times.
-/
import proofs.«430447_j24885040513384_2_alg».proof.Proof.KI.Value

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The operations after the sum: 1 / (1 + exp (−(R + W·h))), R spread over the 2048 rows. -/
def tail (R : S_.Idx → EReal) (w : S2048x2048.Idx → EReal) (h : S2048x1.Idx → EReal) : S2048x1.Idx → EReal :=
  Host.divf (F := Ideal) (φ := .f32) (broadcastInDim S2048x1 ![] Facts₀.bcast_S_S2048x1 (constant (F := Ideal) S_ .f32 0x3F800000#32))
    (addf (F := Ideal) (φ := .f32) (broadcastInDim S2048x1 ![] Facts₀.bcast_S_S2048x1 (constant (F := Ideal) S_ .f32 0x3F800000#32))
      (Host.exp (F := Ideal) (φ := .f32) (Host.negf (F := Ideal) (φ := .f32)
        (addf (F := Ideal) (φ := .f32) (broadcastInDim S2048x1 ![] Facts₀.bcast_S_S2048x1 R)
          (Host.dotGeneral (F := Ideal) (φ₁ := .f32) (φ₂ := .f32) dot_S2048x2048_S2048x1_S2048x1_1_0_0_1_n_n none w h)))))

/-- The host's sum of the output array. -/
def Rk (c : Dev nD) : S_.Idx → EReal :=
  Host.reduceAdd (F := Ideal) (φ := .f32) (G m c) (constant (F := Ideal) S_ .f32 0x00000000#32) Facts₀.reducesTo_S16x8x128_S_d0_1_2 Facts₀.h_S_

/-- The result buffer after the second stretch of host operations. -/
theorem out_eq (c : Dev nD) :
    Pipeline.afterTail₀ cfgs (dats m) 0 (V0 m) [hostOps1] c main_v35
      = tail (Rk m c) (m ((c : Thread nD τ).loc main_arg5)) (m ((c : Thread nD τ).loc main_arg4)) := by
  unfold Pipeline.afterTail₀
  show StableHlo.after hostOps1 _ (Proc.devRef .tc main_v35) = _
  after_results_simp
  have h6 : Pipeline.withArrays (cfgs 0).spec c (V0 m c) (fun w => (dats m 0 c).arrAt w (cfgs 0).N) (Proc.devRef .tc main_v25) = G m c :=
    (Pipeline.withArrays_arr spec0 launch0.win.arr_inj c _ _ 6).trans (final6 m c)
  have h5 : Pipeline.withArrays (cfgs 0).spec c (V0 m c) (fun w => (dats m 0 c).arrAt w (cfgs 0).N) (Proc.devRef .tc main_arg5)
      = m ((c : Thread nD τ).loc main_arg5) :=
    (Pipeline.withArrays_of_ne spec0 c (V0 m c) _ main_arg5 (by exact (by decide : ∀ w, Pipeline.arrRef spec0 w ≠ main_arg5))).trans (V_main_arg5 m c)
  have h4 : Pipeline.withArrays (cfgs 0).spec c (V0 m c) (fun w => (dats m 0 c).arrAt w (cfgs 0).N) (Proc.devRef .tc main_arg4)
      = m ((c : Thread nD τ).loc main_arg4) :=
    (Pipeline.withArrays_of_ne spec0 c (V0 m c) _ main_arg4 (by exact (by decide : ∀ w, Pipeline.arrRef spec0 w ≠ main_arg4))).trans (V_main_arg4 m c)
  rw [h6, h5, h4]
  rfl

/-! ## The scalar -/

/-- A rank-3 index is its three coordinates, -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- so a sum over it is the triple sum over the coordinates. -/
theorem sum_idx3 {n0 n1 n2 : Nat} (f : (⟨3, ![n0, n1, n2]⟩ : Shape).Idx → EReal) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The host's sum of the output array is the initial value plus the total of the two stages over every entry. -/
theorem Rk_eq (c : Dev nD) :
    Rk m c = fun _ => Ideal.ofBits .f32 0x00000000#32 + ∑ i : Fin 4096, ∑ j : Fin 2048, Sf m c i j := by
  funext q
  unfold Rk
  simp only [Host.reduceAdd, Ideal.hostReduceAdd_def]
  refine (Ideal.hostReduceAdd_total Facts₀.reducesTo_S16x8x128_S_d0_1_2 (fun b => b.elim0) (G m c) _ q).trans ?_
  refine congrArg₂ (· + ·) rfl ?_
  rw [sum_idx3]
  exact sum_tiles (Sf m c)

/-! ## The run, read -/

/-- Every weakly fair execution of the kernel program ends with the result buffer at the tail of that scalar and the
    twelve arguments as launched. -/
theorem run (ρ : Dev nD → PrngReg) :
    θ_run defs (onTc (τ := τ) (main (F := Ideal))) ⟨m, fun _ => 0, ρ⟩ fun r => ∀ c : Dev nD,
      r.2.mem ((c.tc : Thread nD τ).loc main_v35)
        = tail (fun _ => Ideal.ofBits .f32 0x00000000#32 + ∑ i : Fin 4096, ∑ j : Fin 2048, Sf m c i j)
            (m ((c.tc : Thread nD τ).loc main_arg5)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨((h c).2 main_v35 (Pipeline.mem_restRefs_of main_v35 (by decide) (by decide))).trans
        ((out_eq m c).trans (congrArg (fun R => tail R _ _) (Rk_eq m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩)
    (run_main m ρ)

end Cert.KernelIdeal.Val

end
-- ==== Proof.RefSpec.lean ====
/-
  The reference's sum, entry by entry.

  The reference forms T = a·(X W₁ᵀ) + b·(X W₂ᵀ) and s = c·(T W₃ᵀ) + d·(T W₄ᵀ) over all 4096 rows (each product a
  host matrix product with the transposed weight) and sums s over every entry from the initial value. Read at an entry,
  s (i, j) is the two stages of Spec at row i and column j.
-/
import proofs.«430447_j24885040513384_2_alg».proof.Proof.Gen.ReferenceIdeal.Read
import proofs.«430447_j24885040513384_2_alg».proof.Proof.Spec

noncomputable section

namespace Cert.ReferenceIdeal.RefVal

open Cert.ReferenceIdeal Cert.ReferenceIdeal.Gen Cert.ReferenceIdeal.Read Cert.Spec
open Idealize.ShloMosaic Idealize.ShloMosaic.ValueIdx

/-! The composed index maps of the reading lemmas, at an entry (i, j). -/

theorem e_c (i : Fin 4096) (j : Fin 2048) : idx_main_v26 (idx_main_v29 (ix2 i j)) = ix1 i :=
  funext fun a => Fin.ext (by match a with | ⟨0, _⟩ => rfl)
theorem e_d (i : Fin 4096) (j : Fin 2048) : idx_main_v31 (idx_main_v34 (ix2 i j)) = ix1 i :=
  funext fun a => Fin.ext (by match a with | ⟨0, _⟩ => rfl)
theorem e_a (i : Fin 4096) (j : Fin 2048) : idx_main_v15 (idx_main_v18 (ix2 i j)) = ix1 i :=
  funext fun a => Fin.ext (by match a with | ⟨0, _⟩ => rfl)
theorem e_b (i : Fin 4096) (j : Fin 2048) : idx_main_v20 (idx_main_v23 (ix2 i j)) = ix1 i :=
  funext fun a => Fin.ext (by match a with | ⟨0, _⟩ => rfl)
theorem e_l28 (i : Fin 4096) (j k : Fin 2048) : lidx_main_v28 (ix2 i j) k = ix2 i k :=
  funext fun a => Fin.ext (by match a with | ⟨0, _⟩ => rfl | ⟨1, _⟩ => rfl)
theorem e_l33 (i : Fin 4096) (j k : Fin 2048) : lidx_main_v33 (ix2 i j) k = ix2 i k :=
  funext fun a => Fin.ext (by match a with | ⟨0, _⟩ => rfl | ⟨1, _⟩ => rfl)
theorem e_l17 (i : Fin 4096) (j k : Fin 2048) : lidx_main_v17 (ix2 i j) k = ix2 i k :=
  funext fun a => Fin.ext (by match a with | ⟨0, _⟩ => rfl | ⟨1, _⟩ => rfl)
theorem e_l22 (i : Fin 4096) (j k : Fin 2048) : lidx_main_v22 (ix2 i j) k = ix2 i k :=
  funext fun a => Fin.ext (by match a with | ⟨0, _⟩ => rfl | ⟨1, _⟩ => rfl)
theorem e_r28 (i : Fin 4096) (j k : Fin 2048) : idx_main_v27 (ridx_main_v28 (ix2 i j) k) = ix2 j k :=
  funext fun a => Fin.ext (by match a with | ⟨0, _⟩ => rfl | ⟨1, _⟩ => rfl)
theorem e_r33 (i : Fin 4096) (j k : Fin 2048) : idx_main_v32 (ridx_main_v33 (ix2 i j) k) = ix2 j k :=
  funext fun a => Fin.ext (by match a with | ⟨0, _⟩ => rfl | ⟨1, _⟩ => rfl)
theorem e_r17 (i : Fin 4096) (j k : Fin 2048) : idx_main_v16 (ridx_main_v17 (ix2 i j) k) = ix2 j k :=
  funext fun a => Fin.ext (by match a with | ⟨0, _⟩ => rfl | ⟨1, _⟩ => rfl)
theorem e_r22 (i : Fin 4096) (j k : Fin 2048) : idx_main_v21 (ridx_main_v22 (ix2 i j) k) = ix2 j k :=
  funext fun a => Fin.ext (by match a with | ⟨0, _⟩ => rfl | ⟨1, _⟩ => rfl)

variable (x0 x1 x2 x3 : (⟨S4096, .f32⟩ : BufTy).Contents (Elt Ideal)) (x6 x7 x8 x9 : (⟨S2048x2048, .f32⟩ : BufTy).Contents (Elt Ideal))
  (x10 : (⟨S100000x2048, .f32⟩ : BufTy).Contents (Elt Ideal)) (x11 : (⟨S4096, .i32⟩ : BufTy).Contents (Elt Ideal))

/-- The first stage at (i, k). -/
theorem v25_apply (i : Fin 4096) (k : Fin 2048) :
    val_main_v25 (F := Ideal) x0 x1 x6 x7 x10 x11 (ix2 i k)
      = stage (fun i => val_main_v1 (F := Ideal) x0 x1 (ix1 i)) (fun i => val_main_v3 (F := Ideal) x0 x1 (ix1 i))
          (fun i k => val_main_v14 (F := Ideal) x10 x11 (ix2 i k)) (fun j k => x6 (ix2 j k)) (fun j k => x7 (ix2 j k)) i k := by
  rw [val_main_v25_apply, val_main_v19_apply, val_main_v24_apply, val_main_v18_apply, val_main_v23_apply,
    val_main_v15_apply, val_main_v20_apply, val_main_v17_apply, val_main_v22_apply, e_a, e_b]
  simp only [e_l17, e_l22, val_main_v16_apply, val_main_v21_apply, e_r17, e_r22]
  rfl

/-- The second stage at (i, j). -/
theorem v36_apply (i : Fin 4096) (j : Fin 2048) :
    val_main_v36 (F := Ideal) x0 x1 x2 x3 x6 x7 x8 x9 x10 x11 (ix2 i j)
      = stage (fun i => val_main_v5 (F := Ideal) x2 x3 (ix1 i)) (fun i => val_main_v7 (F := Ideal) x2 x3 (ix1 i))
          (stage (fun i => val_main_v1 (F := Ideal) x0 x1 (ix1 i)) (fun i => val_main_v3 (F := Ideal) x0 x1 (ix1 i))
            (fun i k => val_main_v14 (F := Ideal) x10 x11 (ix2 i k)) (fun j k => x6 (ix2 j k)) (fun j k => x7 (ix2 j k)))
          (fun j k => x8 (ix2 j k)) (fun j k => x9 (ix2 j k)) i j := by
  rw [val_main_v36_apply, val_main_v30_apply, val_main_v35_apply, val_main_v29_apply, val_main_v34_apply,
    val_main_v26_apply, val_main_v31_apply, val_main_v28_apply, val_main_v33_apply, e_c, e_d]
  simp only [e_l28, e_l33, val_main_v27_apply, val_main_v32_apply, e_r28, e_r33, v25_apply]
  rfl

/-- The reference's scalar: the initial value plus the sum of the two stages over every entry. -/
theorem v37_eq :
    val_main_v37 (F := Ideal) x0 x1 x2 x3 x6 x7 x8 x9 x10 x11
      = fun _ => Ideal.ofBits .f32 0x00000000#32 + ∑ i : Fin 4096, ∑ j : Fin 2048,
          stage (fun i => val_main_v5 (F := Ideal) x2 x3 (ix1 i)) (fun i => val_main_v7 (F := Ideal) x2 x3 (ix1 i))
            (stage (fun i => val_main_v1 (F := Ideal) x0 x1 (ix1 i)) (fun i => val_main_v3 (F := Ideal) x0 x1 (ix1 i))
              (fun i k => val_main_v14 (F := Ideal) x10 x11 (ix2 i k)) (fun j k => x6 (ix2 j k)) (fun j k => x7 (ix2 j k)))
            (fun j k => x8 (ix2 j k)) (fun j k => x9 (ix2 j k)) i j := by
  funext q
  rw [val_main_v37_apply, sum_idx2]
  refine congrArg₂ (· + ·) rfl (Finset.sum_congr rfl fun i _ => Finset.sum_congr rfl fun j _ => ?_)
  exact v36_apply x0 x1 x2 x3 x6 x7 x8 x9 x10 x11 i j

end Cert.ReferenceIdeal.RefVal

end
-- ==== Proof.Bridge.lean ====
/-
  The two programs' results are one function of the arguments.

  The reference's result is the shared tail of its scalar, and its scalar is the initial value plus the total of the
  two stages over every entry, the coefficient vectors x/(x+y) and y/(x+y) and the gathered rows being the very host
  terms the kernel program computes before its region; the kernel program's result is the same tail of the same sum.
-/
import proofs.«430447_j24885040513384_2_alg».proof.Proof.KI.Out
import proofs.«430447_j24885040513384_2_alg».proof.Proof.RefSpec

set_option maxRecDepth 16384

noncomputable section

namespace Cert.Bridge

open Cert.Spec Cert.KernelIdeal.Val
open Idealize.ShloMosaic Idealize.ShloMosaic.ValueIdx

/-- The reference's result term is the kernel program's. -/
theorem result_eq (x0 x1 x2 x3 : (⟨Cert.ReferenceIdeal.S4096, .f32⟩ : BufTy).Contents (Elt Ideal))
    (x4 : (⟨Cert.ReferenceIdeal.S2048x1, .f32⟩ : BufTy).Contents (Elt Ideal))
    (x5 x6 x7 x8 x9 : (⟨Cert.ReferenceIdeal.S2048x2048, .f32⟩ : BufTy).Contents (Elt Ideal))
    (x10 : (⟨Cert.ReferenceIdeal.S100000x2048, .f32⟩ : BufTy).Contents (Elt Ideal))
    (x11 : (⟨Cert.ReferenceIdeal.S4096, .i32⟩ : BufTy).Contents (Elt Ideal)) :
    Cert.ReferenceIdeal.Read.val_main_v46 (F := Ideal) x0 x1 x2 x3 x4 x5 x6 x7 x8 x9 x10 x11
      = tail (fun _ => Ideal.ofBits .f32 0x00000000#32 + ∑ i : Fin 4096, ∑ j : Fin 2048,
          stage (fun i => coefL x2 x3 (ix1 i)) (fun i => coefR x2 x3 (ix1 i))
            (stage (fun i => coefL x0 x1 (ix1 i)) (fun i => coefR x0 x1 (ix1 i)) (fun i k => gath x10 x11 (ix2 i k))
              (fun j k => x6 (ix2 j k)) (fun j k => x7 (ix2 j k)))
            (fun j k => x8 (ix2 j k)) (fun j k => x9 (ix2 j k)) i j) x5 x4 := by
  have h : Cert.ReferenceIdeal.Read.val_main_v46 (F := Ideal) x0 x1 x2 x3 x4 x5 x6 x7 x8 x9 x10 x11
      = tail (Cert.ReferenceIdeal.Read.val_main_v37 (F := Ideal) x0 x1 x2 x3 x6 x7 x8 x9 x10 x11) x5 x4 := rfl
  rw [h, Cert.ReferenceIdeal.RefVal.v37_eq]
  rfl

end Cert.Bridge

end
-- ==== Proof.lean ====
/-
  Equivalence over the extended reals of a tiled Pallas kernel and its jnp reference.

  Both programs form, from two pairs of positive-weight vectors, the coefficients a = x/(x+y), b = y/(x+y) (and c, d
  likewise), gather 4096 rows X of a table, and compute T = a·(X W₁ᵀ) + b·(X W₂ᵀ), s = c·(T W₃ᵀ) + d·(T W₄ᵀ), the
  scalar R = Σ s, and finally 1 / (1 + exp (−(R + W_ih·hx))). The reference does this on whole arrays. The kernel packs
  the coefficients into a 4096×4 array, processes sixteen tiles of 256 rows, writes each tile's total times 2⁻¹⁰ over an
  8×128 block, and sums the blocks on the host.

  At the ideal instance a change of float format is the identity and a matrix product is the exact sum, so each entry
  of s is the same expression in both programs; the two totals differ only in how the sum is grouped and in the
  1024-fold repetition of each tile's total scaled by 2⁻¹⁰, which adds back up to the total for every extended real,
  infinite ones included. No finiteness of the inputs is used.

  The three frames: the two kernel programs run — host operations, the pipelined region (whose body's triple is
  executed symbolically and whose windows keep or fetch their blocks), host operations — and leave the arguments as
  launched; the reference is a straight line of host operations. The idealization rewrote nothing, so it is preserved
  trivially.
-/
import proofs.«430447_j24885040513384_2_alg».proof.Defs
import proofs.«430447_j24885040513384_2_alg».proof.Proof.K.Frame
import proofs.«430447_j24885040513384_2_alg».proof.Proof.KI.Out
import proofs.«430447_j24885040513384_2_alg».proof.Proof.Bridge
import proofs.«430447_j24885040513384_2_alg».proof.Proof.Gen.ReferenceIdeal.Run
import proofs.«430447_j24885040513384_2_alg».proof.Proof.Gen.ReferenceIdeal.Read
import proofs.«430447_j24885040513384_2_alg».proof.Proof.Gen.Pre_finite_inputs
import Idealize.ShloMosaic.Adequacy
import Idealize.ShloMosaic.Init

noncomputable section

namespace Cert.Proof

open Idealize.ShloMosaic Idealize.SL.Sem

/-- The kernel program as printed runs and keeps its arguments. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the same result: the shared tail of the initial
    value plus the total of the two stages. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v46_eq, h0, h1, h2, h3, h4, h5, h6, h7, h8, h9, h10, h11]
  exact Cert.Bridge.result_eq _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
